-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32 .f32) (main_arg6 : FVec F S32x2 .f32) (main_arg7 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x2 .f32 := Host.absf main_arg6
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) (main_arg6 : FVec F S32x2 .f32) (main_arg7 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1703936 : Shape := ⟨1, ![1703936]⟩
abbrev S1703936x1 : Shape := ⟨2, ![1703936, 1]⟩
abbrev S5000x64 : Shape := ⟨2, ![5000, 64]⟩
abbrev S1703936x64 : Shape := ⟨2, ![1703936, 64]⟩
abbrev S8192x1 : Shape := ⟨2, ![8192, 1]⟩
abbrev S8192x64 : Shape := ⟨2, ![8192, 64]⟩
abbrev S1x64 : Shape := ⟨2, ![1, 64]⟩
abbrev S100000x32 : Shape := ⟨2, ![100000, 32]⟩
abbrev S5000x32 : Shape := ⟨2, ![5000, 32]⟩
abbrev S1703936x32 : Shape := ⟨2, ![1703936, 32]⟩
abbrev S8192x32 : Shape := ⟨2, ![8192, 32]⟩
abbrev S1x32 : Shape := ⟨2, ![1, 32]⟩
abbrev S100000x2 : Shape := ⟨2, ![100000, 2]⟩
abbrev S5000x2 : Shape := ⟨2, ![5000, 2]⟩
abbrev S1703936x2 : Shape := ⟨2, ![1703936, 2]⟩
abbrev S8192x2 : Shape := ⟨2, ![8192, 2]⟩
abbrev S1x2 : Shape := ⟨2, ![1, 2]⟩

abbrev nBuf : Space → Nat
  | .hbm => 111
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S_, .i32⟩
  | .hbm, ⟨53, _⟩ => ⟨S1703936, .i32⟩
  | .hbm, ⟨54, _⟩ => ⟨S_, .i32⟩
  | .hbm, ⟨55, _⟩ => ⟨S_, .i32⟩
  | .hbm, ⟨56, _⟩ => ⟨S1703936, .i32⟩
  | .hbm, ⟨57, _⟩ => ⟨S_, .f32⟩
  | .hbm, ⟨58, _⟩ => ⟨S_, .f32⟩
  | .hbm, ⟨59, _⟩ => ⟨S1703936, .f32⟩
  | .hbm, ⟨60, _⟩ => ⟨S1703936x1, .f32⟩
  | .hbm, ⟨61, _⟩ => ⟨S100000x64, .f32⟩
  | .hbm, ⟨62, _⟩ => ⟨S_, .i32⟩
  | .hbm, ⟨63, _⟩ => ⟨S1703936, .i32⟩
  | .hbm, ⟨64, _⟩ => ⟨S1703936, .i1⟩
  | .hbm, ⟨65, _⟩ => ⟨S_, .i32⟩
  | .hbm, ⟨66, _⟩ => ⟨S1703936, .i32⟩
  | .hbm, ⟨67, _⟩ => ⟨S1703936, .i32⟩
  | .hbm, ⟨68, _⟩ => ⟨S1703936, .i32⟩
  | .hbm, ⟨69, _⟩ => ⟨S1703936x1, .i32⟩
  | .hbm, ⟨70, _⟩ => ⟨S1703936x64, .f32⟩
  | .hbm, ⟨71, _⟩ => ⟨S1703936x64, .f32⟩
  | .hbm, ⟨72, _⟩ => ⟨S_, .f32⟩
  | .hbm, ⟨73, _⟩ => ⟨S100000x64, .f32⟩
  | .hbm, ⟨74, _⟩ => ⟨S1703936x1, .i32⟩
  | .hbm, ⟨75, _⟩ => ⟨S100000x64, .f32⟩
  | .hbm, ⟨76, _⟩ => ⟨S1x64, .f32⟩
  | .hbm, ⟨77, _⟩ => ⟨S100000x32, .f32⟩
  | .hbm, ⟨78, _⟩ => ⟨S_, .i32⟩
  | .hbm, ⟨79, _⟩ => ⟨S1703936, .i32⟩
  | .hbm, ⟨80, _⟩ => ⟨S1703936, .i1⟩
  | .hbm, ⟨81, _⟩ => ⟨S_, .i32⟩
  | .hbm, ⟨82, _⟩ => ⟨S1703936, .i32⟩
  | .hbm, ⟨83, _⟩ => ⟨S1703936, .i32⟩
  | .hbm, ⟨84, _⟩ => ⟨S1703936, .i32⟩
  | .hbm, ⟨85, _⟩ => ⟨S1703936x1, .i32⟩
  | .hbm, ⟨86, _⟩ => ⟨S1703936x32, .f32⟩
  | .hbm, ⟨87, _⟩ => ⟨S1703936x32, .f32⟩
  | .hbm, ⟨88, _⟩ => ⟨S_, .f32⟩
  | .hbm, ⟨89, _⟩ => ⟨S100000x32, .f32⟩
  | .hbm, ⟨90, _⟩ => ⟨S1703936x1, .i32⟩
  | .hbm, ⟨91, _⟩ => ⟨S100000x32, .f32⟩
  | .hbm, ⟨92, _⟩ => ⟨S1x32, .f32⟩
  | .hbm, ⟨93, _⟩ => ⟨S100000x2, .f32⟩
  | .hbm, ⟨94, _⟩ => ⟨S_, .i32⟩
  | .hbm, ⟨95, _⟩ => ⟨S1703936, .i32⟩
  | .hbm, ⟨96, _⟩ => ⟨S1703936, .i1⟩
  | .hbm, ⟨97, _⟩ => ⟨S_, .i32⟩
  | .hbm, ⟨98, _⟩ => ⟨S1703936, .i32⟩
  | .hbm, ⟨99, _⟩ => ⟨S1703936, .i32⟩
  | .hbm, ⟨100, _⟩ => ⟨S1703936, .i32⟩
  | .hbm, ⟨101, _⟩ => ⟨S1703936x1, .i32⟩
  | .hbm, ⟨102, _⟩ => ⟨S1703936x2, .f32⟩
  | .hbm, ⟨103, _⟩ => ⟨S1703936x2, .f32⟩
  | .hbm, ⟨104, _⟩ => ⟨S_, .f32⟩
  | .hbm, ⟨105, _⟩ => ⟨S100000x2, .f32⟩
  | .hbm, ⟨106, _⟩ => ⟨S1703936x1, .i32⟩
  | .hbm, ⟨107, _⟩ => ⟨S100000x2, .f32⟩
  | .hbm, ⟨108, _⟩ => ⟨S1x2, .f32⟩
  | .hbm, ⟨109, _⟩ => ⟨S100000x2, .f32⟩
  | .hbm, ⟨110, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S8192x1, .f32⟩
  | .local _ .vmem, ⟨6, _⟩ => ⟨S8192x1, .f32⟩
  | .local _ .vmem, ⟨7, _⟩ => ⟨S8192x64, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S8192x1, .f32⟩
  | .local _ .vmem, ⟨18, _⟩ => ⟨S8192x1, .f32⟩
  | .local _ .vmem, ⟨19, _⟩ => ⟨S8192x32, .f32⟩
  | .local _ .vmem, ⟨20, _⟩ => ⟨S8192x32, .f32⟩
  | .local _ .vmem, ⟨21, _⟩ => ⟨S8192x32, .f32⟩
  | .local _ .vmem, ⟨22, _⟩ => ⟨S8192x32, .f32⟩
  | .local _ .vmem, ⟨23, _⟩ => ⟨S5000x32, .f32⟩
  | .local _ .vmem, ⟨24, _⟩ => ⟨S5000x32, .f32⟩
  | .local _ .vmem, ⟨25, _⟩ => ⟨S1x32, .f32⟩
  | .local _ .vmem, ⟨26, _⟩ => ⟨S32x2, .f32⟩
  | .local _ .vmem, ⟨27, _⟩ => ⟨S5000x2, .f32⟩
  | .local _ .vmem, ⟨28, _⟩ => ⟨S5000x2, .f32⟩
  | .local _ .vmem, ⟨29, _⟩ => ⟨S8192x1, .f32⟩
  | .local _ .vmem, ⟨30, _⟩ => ⟨S8192x1, .f32⟩
  | .local _ .vmem, ⟨31, _⟩ => ⟨S8192x2, .f32⟩
  | .local _ .vmem, ⟨32, _⟩ => ⟨S8192x2, .f32⟩
  | .local _ .vmem, ⟨33, _⟩ => ⟨S8192x2, .f32⟩
  | .local _ .vmem, ⟨34, _⟩ => ⟨S8192x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call1_v0 : Ref sig .tc := ⟨.hbm, 52, rfl⟩
abbrev main_v32 : Ref sig .tc := ⟨.hbm, 53, rfl⟩
abbrev main_c_8 : Ref sig .tc := ⟨.hbm, 54, rfl⟩
abbrev main_call2_v0 : Ref sig .tc := ⟨.hbm, 55, rfl⟩
abbrev main_v33 : Ref sig .tc := ⟨.hbm, 56, rfl⟩
abbrev main_cst_9 : Ref sig .tc := ⟨.hbm, 57, rfl⟩
abbrev main_call3_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![208], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![208], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S1700000_S1703936_039360 : S1700000.Pads (![0] : Fin 1 → Nat) ![3936] ![0] S1703936
  h_S_ : 0 < S_.numel
  shapeCasts_S1703936_S1703936x1 : S1703936.ShapeCasts S1703936x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  broadcasts_S8192x1_S8192x32 : S8192x1.Broadcasts S8192x32
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x2_S32x2_0_0 : ∀ a, (![0, 0] : Fin 2 → Nat) a + S32x2.size a ≤ S32x2.size a
  h_S32x2 : 0 < S32x2.numel
  inb_S5000x2_S5000x2_0_0 : ∀ a, (![0, 0] : Fin 2 → Nat) a + S5000x2.size a ≤ S5000x2.size a
  h_S5000x2 : 0 < S5000x2.numel
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  broadcasts_S8192x1_S8192x2 : S8192x1.Broadcasts S8192x2
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1703936x1_S1703936x64_1_0_n_n_0_1_164_wf : GatherDims.WF S100000x64 S1703936x1 S1703936x64 [1] [0] [] [0] [] 1 ![1, 64]
  scatter_S100000x64_S1703936x1_S1703936x64_1_0_0_1_wf : ScatterDims.WF S100000x64 S1703936x1 S1703936x64 [1] [0] [0] 1
  dot_S5000x64_S64x32_S5000x32_1_0_0_1_n_n_wf : DotDims.WF S5000x64 S64x32 S5000x32 [1] [0] [0] [1] [] []
  gather_S100000x32_S1703936x1_S1703936x32_1_0_n_n_0_1_132_wf : GatherDims.WF S100000x32 S1703936x1 S1703936x32 [1] [0] [] [0] [] 1 ![1, 32]
  scatter_S100000x32_S1703936x1_S1703936x32_1_0_0_1_wf : ScatterDims.WF S100000x32 S1703936x1 S1703936x32 [1] [0] [0] 1
  dot_S5000x32_S32x2_S5000x2_1_0_0_1_n_n_wf : DotDims.WF S5000x32 S32x2 S5000x2 [1] [0] [0] [1] [] []
  gather_S100000x2_S1703936x1_S1703936x2_1_0_n_n_0_1_12_wf : GatherDims.WF S100000x2 S1703936x1 S1703936x2 [1] [0] [] [0] [] 1 ![1, 2]
  scatter_S100000x2_S1703936x1_S1703936x2_1_0_0_1_wf : ScatterDims.WF S100000x2 S1703936x1 S1703936x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S1703936x1.size a
  hwx1_0 : ∀ i : grid1.Coords, EltTy.bits .f32 = 32 ∨ (Rect.block (s := S1703936x1) S8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S1703936x64.size a
  hwx1_1 : ∀ i : grid1.Coords, EltTy.bits .f32 = 32 ∨ (Rect.block (s := S1703936x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1703936x64.size a
  hwx1_2 : ∀ i : grid1.Coords, EltTy.bits .f32 = 32 ∨ (Rect.block (s := S1703936x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x1.size a ≤ S1703936x1.size a
  hwx3_0 : ∀ i : grid3.Coords, EltTy.bits .f32 = 32 ∨ (Rect.block (s := S1703936x1) S8192x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x32.size a ≤ S1703936x32.size a
  hwx3_1 : ∀ i : grid3.Coords, EltTy.bits .f32 = 32 ∨ (Rect.block (s := S1703936x32) S8192x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x32.size a ≤ S1703936x32.size a
  hwx3_2 : ∀ i : grid3.Coords, EltTy.bits .f32 = 32 ∨ (Rect.block (s := S1703936x32) S8192x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x2.size a ≤ S32x2.size a
  hwx4_2 : ∀ i : grid4.Coords, EltTy.bits .f32 = 32 ∨ (Rect.block (s := S32x2) S32x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S100000x2.size a
  hwx4_3 : ∀ i : grid4.Coords, EltTy.bits .f32 = 32 ∨ (Rect.block (s := S100000x2) S5000x2.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x1.size a ≤ S1703936x1.size a
  hwx5_0 : ∀ i : grid5.Coords, EltTy.bits .f32 = 32 ∨ (Rect.block (s := S1703936x1) S8192x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x2.size a ≤ S1703936x2.size a
  hwx5_1 : ∀ i : grid5.Coords, EltTy.bits .f32 = 32 ∨ (Rect.block (s := S1703936x2) S8192x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x2.size a ≤ S1703936x2.size a
  hwx5_2 : ∀ i : grid5.Coords, EltTy.bits .f32 = 32 ∨ (Rect.block (s := S1703936x2) S8192x2.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1703936x1_S1703936x64_1_0_0_1 : ScatterDims S100000x64 S1703936x1 S1703936x64 where
  updateWindowDims := [1]
  insertedWindowDims := [0]
  scatterDimsToOperandDims := [0]
  indexVectorDim := 1
  wf := scatter_S100000x64_S1703936x1_S1703936x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1703936x1_S1703936x32_1_0_n_n_0_1_132 : GatherDims S100000x32 S1703936x1 S1703936x32 where
  offsetDims := [1]
  collapsedSliceDims := [0]
  operandBatchingDims := []
  startIndicesBatchingDims := []
  startIndexMap := [0]
  indexVectorDim := 1
  sliceSizes := ![1, 32]
  wf := gather_S100000x32_S1703936x1_S1703936x32_1_0_n_n_0_1_132_wf
def scatter_S100000x32_S1703936x1_S1703936x32_1_0_0_1 : ScatterDims S100000x32 S1703936x1 S1703936x32 where
  updateWindowDims := [1]
  insertedWindowDims := [0]
  scatterDimsToOperandDims := [0]
  indexVectorDim := 1
  wf := scatter_S100000x32_S1703936x1_S1703936x32_1_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000x2_S1703936x1_S1703936x2_1_0_n_n_0_1_12 : GatherDims S100000x2 S1703936x1 S1703936x2 where
  offsetDims := [1]
  collapsedSliceDims := [0]
  operandBatchingDims := []
  startIndicesBatchingDims := []
  startIndexMap := [0]
  indexVectorDim := 1
  sliceSizes := ![1, 2]
  wf := gather_S100000x2_S1703936x1_S1703936x2_1_0_n_n_0_1_12_wf
def scatter_S100000x2_S1703936x1_S1703936x2_1_0_0_1 : ScatterDims S100000x2 S1703936x1 S1703936x2 where
  updateWindowDims := [1]
  insertedWindowDims := [0]
  scatterDimsToOperandDims := [0]
  indexVectorDim := 1
  wf := scatter_S100000x2_S1703936x1_S1703936x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S8192x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S8192x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S8192x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S32x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v35) S8192x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S8192x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S8192x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S32x2, .f32⟩
  | 7 => ⟨S2, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S1700000x1, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x32, .f32⟩
  | 104 => ⟨S1700000x32, .f32⟩
  | 105 => ⟨S1700000x32, .f32⟩
  | 106 => ⟨S_, .f32⟩
  | 107 => ⟨S100000x32, .f32⟩
  | 108 => ⟨S1700000x1, .i32⟩
  | 109 => ⟨S100000x32, .f32⟩
  | 110 => ⟨S1x32, .f32⟩
  | 111 => ⟨S100000x32, .f32⟩
  | 112 => ⟨S100000x32, .f32⟩
  | 113 => ⟨S_, .f32⟩
  | 114 => ⟨S100000x32, .f32⟩
  | 115 => ⟨S100000x32, .f32⟩
  | 116 => ⟨S100000x2, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S_, .i32⟩
  | 127 => ⟨S1700000, .i32⟩
  | _ => ⟨S100000x64, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S1700000x1, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x2, .f32⟩
  | 18 => ⟨S1700000x2, .f32⟩
  | 19 => ⟨S1700000x2, .f32⟩
  | 20 => ⟨S_, .f32⟩
  | 21 => ⟨S100000x2, .f32⟩
  | 22 => ⟨S1700000x1, .i32⟩
  | 23 => ⟨S100000x2, .f32⟩
  | 24 => ⟨S1x2, .f32⟩
  | 25 => ⟨S100000x2, .f32⟩
  | 26 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_c_22 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x2_S100000x2_1_0_0_1_n_n_wf : DotDims.WF S100000x32 S32x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.Spec.lean ====
/-
  What the reference computes, as a composition of whole-array operations.

  The graph has the 1.6 million given edges plus one self-loop per node: `srcOf` and `dstOf` are the two rows of
  the edge list, each followed by `0, 1, …, 99999`. `degOf` counts the edges arriving at each node, `dinvOf` is
  `deg^(-1/2)` (zero where the count is not positive), `wrapOf` is the row number a negative index means (counted
  from the end) as a column of gather indices, and `normOf` is the edge weight `dinv[src] · dinv[dst]`. One
  graph-convolution step at feature width `D` (`conv64`, `conv32`, `conv2`) gathers row `src[e]` of the
  transformed features for every edge `e`, scales it by the edge's weight and adds it into row `dst[e]`.
  The network is three such steps, each after a product with a weight matrix, with a bias added after each and a
  clamp at zero after the first two.
-/
import proofs.«130575_j19585050869931_1_alg».proof.Proof.RefRun

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The source node of every edge: row 0 of the edge list, then one self-loop per node. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destination node of every edge: row 1 of the edge list, then one self-loop per node. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The number of edges arriving at each node. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- `deg^(-1/2)` where the count is positive (the count clamped at one from below first), zero elsewhere. -/
def dinvOf (dst : (⟨S1700000, .i32⟩ : BufTy).Contents (Elt F)) : (⟨S100000, .f32⟩ : BufTy).Contents (Elt F) :=
  select (cmpf (F := F) .ogt (degOf dst) (broadcastInDim S100000 ![] bcast_S_S100000 (constant S_ .f32 0x00000000#32))) (Host.rsqrt (maximumf (degOf dst) (broadcastInDim S100000 ![] bcast_S_S100000 (constant S_ .f32 0x3F800000#32)))) (broadcastInDim S100000 ![] bcast_S_S100000 (id (constant S_ .f32 0x00000000#32)))

/-- Node numbers as a column of gather indices, a negative number counted from the end. -/
def wrapOf (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The weight of every edge: `dinv[src] · dinv[dst]`. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf dst) (wrapOf src)) (Host.gather gather_S100000_S1700000x1_S1700000_n_0_n_n_0_1_1 (dinvOf dst) (wrapOf dst))

/-- One aggregation at width 64: row `src[e]` of `h`, scaled by the edge's weight, added into row `dst[e]`. -/
def conv64 (h : (⟨S100000x64, .f32⟩ : BufTy).Contents (Elt F)) (wsrc : (⟨S1700000x1, .i32⟩ : BufTy).Contents (Elt F))
    (dst : (⟨S1700000, .i32⟩ : BufTy).Contents (Elt F)) (norm : (⟨S1700000, .f32⟩ : BufTy).Contents (Elt F)) :
    (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (broadcastInDim S1700000x64 ![0, 1] bcast_S1700000x1_S1700000x64_0_1 (broadcastInDim S1700000x1 ![0] bcast_S1700000_S1700000x1_0 norm)) (Host.gather gather_S100000x64_S1700000x1_S1700000x64_1_0_n_n_0_1_164 h wsrc))

/-- One aggregation at width 32. -/
def conv32 (h : (⟨S100000x32, .f32⟩ : BufTy).Contents (Elt F)) (wsrc : (⟨S1700000x1, .i32⟩ : BufTy).Contents (Elt F))
    (dst : (⟨S1700000, .i32⟩ : BufTy).Contents (Elt F)) (norm : (⟨S1700000, .f32⟩ : BufTy).Contents (Elt F)) :
    (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (broadcastInDim S1700000x32 ![0, 1] bcast_S1700000x1_S1700000x32_0_1 (broadcastInDim S1700000x1 ![0] bcast_S1700000_S1700000x1_0 norm)) (Host.gather gather_S100000x32_S1700000x1_S1700000x32_1_0_n_n_0_1_132 h wsrc))

/-- One aggregation at width 2. -/
def conv2 (h : (⟨S100000x2, .f32⟩ : BufTy).Contents (Elt F)) (wsrc : (⟨S1700000x1, .i32⟩ : BufTy).Contents (Elt F))
    (dst : (⟨S1700000, .i32⟩ : BufTy).Contents (Elt F)) (norm : (⟨S1700000, .f32⟩ : BufTy).Contents (Elt F)) :
    (⟨S100000x2, .f32⟩ : BufTy).Contents (Elt F) :=
  Host.scatterAdd scatter_S100000x2_S1700000x1_S1700000x2_1_0_0_1 (broadcastInDim S100000x2 ![] bcast_S_S100000x2 (constant S_ .f32 0x00000000#32)) (broadcastInDim S1700000x1 ![0] bcast_S1700000_S1700000x1_0 dst) (mulf (broadcastInDim S1700000x2 ![0, 1] bcast_S1700000x1_S1700000x2_0_1 (broadcastInDim S1700000x1 ![0] bcast_S1700000_S1700000x1_0 norm)) (Host.gather gather_S100000x2_S1700000x1_S1700000x2_1_0_n_n_0_1_12 h wsrc))

/-- Bias added along the rows, then clamped at zero from below, at width 64. -/
def act64 (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- Bias added along the rows, then clamped at zero from below, at width 32. -/
def act32 (a : (⟨S100000x32, .f32⟩ : BufTy).Contents (Elt F)) (b : (⟨S32, .f32⟩ : BufTy).Contents (Elt F)) :
    (⟨S100000x32, .f32⟩ : BufTy).Contents (Elt F) :=
  maximumf (addf a (broadcastInDim S100000x32 ![0, 1] bcast_S1x32_S100000x32_0_1 (broadcastInDim S1x32 ![1] bcast_S32_S1x32_1 b))) (broadcastInDim S100000x32 ![] bcast_S_S100000x32 (constant S_ .f32 0x00000000#32))

/-- The three-step network on node features `x` over the graph `ei`. -/
def refOut (x : (⟨S100000x64, .f32⟩ : BufTy).Contents (Elt F)) (ei : (⟨S2x1600000, .i32⟩ : BufTy).Contents (Elt F))
    (W1 : (⟨S64x64, .f32⟩ : BufTy).Contents (Elt F)) (b1 : (⟨S64, .f32⟩ : BufTy).Contents (Elt F))
    (W2 : (⟨S64x32, .f32⟩ : BufTy).Contents (Elt F)) (b2 : (⟨S32, .f32⟩ : BufTy).Contents (Elt F))
    (W3 : (⟨S32x2, .f32⟩ : BufTy).Contents (Elt F)) (b3 : (⟨S2, .f32⟩ : BufTy).Contents (Elt F)) :
    (⟨S100000x2, .f32⟩ : BufTy).Contents (Elt F) :=
  addf (conv2 (Host.dotGeneral dot_S100000x32_S32x2_S100000x2_1_0_0_1_n_n none
      (act32 (conv32 (Host.dotGeneral dot_S100000x64_S64x32_S100000x32_1_0_0_1_n_n none
        (act64 (conv64 (Host.dotGeneral dot_S100000x64_S64x64_S100000x64_1_0_0_1_n_n none x W1)
          (wrapOf (srcOf ei)) (dstOf ei) (normOf (srcOf ei) (dstOf ei))) b1) W2)
        (wrapOf (srcOf ei)) (dstOf ei) (normOf (srcOf ei) (dstOf ei))) b2) W3)
      (wrapOf (srcOf ei)) (dstOf ei) (normOf (srcOf ei) (dstOf ei)))
    (broadcastInDim S100000x2 ![0, 1] bcast_S1x2_S100000x2_0_1 (broadcastInDim S1x2 ![1] bcast_S2_S1x2_1 b3))

set_option maxRecDepth 8192 in
/-- The run's result term is that composition of the argument arrays. -/
theorem res_eq (m : (ℓ : Loc nD τ sig) → Buf (Elt F) ℓ) (c : Dev nD) :
    Cert.ReferenceIdeal.RunP.res_main_v114 m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.RunP.res_main_v114 refOut conv2 conv32 conv64 act32 act64 normOf wrapOf dinvOf degOf srcOf dstOf
  rfl

end Cert.ReferenceIdeal.Spec

end
-- ==== Proof.KernelValues.lean ====
/-
  The arrays the kernel program computes on the host before its first region, as functions of the edge list.

  They are the reference's own (`srcOf`, `dstOf`, `degOf`, `dinvOf`, `normOf`: the edges with one self-loop per
  node, the arrival counts, `deg^(-1/2)`, the edge weights), and then their extensions by 3936 further entries so
  that the edge axis is a whole number of blocks of 8192: the node lists are extended by node 0 and the weights by
  zero, so an added entry carries weight zero into node 0.
-/
import proofs.«130575_j19585050869931_1_alg».proof.KernelIdeal
import proofs.«130575_j19585050869931_1_alg».proof.Proof.Gen.KernelIdeal

noncomputable section

namespace Cert.KernelIdeal.Values

open Cert.KernelIdeal Cert.KernelIdeal.Gen Idealize.ShloMosaic Idealize.ShloMosaic.TcCoe

variable {F : FTy → Type} [FloatOps F]

/-- The source node of every edge: row 0 of the edge list, then one self-loop per node. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destination node of every edge: row 1 of the edge list, then one self-loop per node. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The number of edges arriving at each node. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- `deg^(-1/2)` where the count is positive (the count clamped at one from below first), zero elsewhere. -/
def dinvOf (dst : (⟨S1700000, .i32⟩ : BufTy).Contents (Elt F)) : (⟨S100000, .f32⟩ : BufTy).Contents (Elt F) :=
  select (cmpf (F := F) .ogt (degOf dst) (broadcastInDim S100000 ![] bcast_S_S100000 (constant S_ .f32 0x00000000#32))) (Host.rsqrt (maximumf (degOf dst) (broadcastInDim S100000 ![] bcast_S_S100000 (constant S_ .f32 0x3F800000#32)))) (broadcastInDim S100000 ![] bcast_S_S100000 (id (constant S_ .f32 0x00000000#32)))

/-- Node numbers as a column of gather indices, a negative number counted from the end. -/
def wrapOf (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The weight of every edge: `dinv[src] · dinv[dst]`. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf dst) (wrapOf src)) (Host.gather gather_S100000_S1700000x1_S1700000_n_0_n_n_0_1_1 (dinvOf dst) (wrapOf dst))

/-- A node list extended by 3936 entries naming node 0. -/
def padNodes (s : (⟨S1700000, .i32⟩ : BufTy).Contents (Elt F)) : (⟨S1703936, .i32⟩ : BufTy).Contents (Elt F) :=
  pad S1703936 ![0] ![3936] ![0] s (id (constantI S_ 32 0#32 : (⟨S_, .i32⟩ : BufTy).Contents (Elt F))) pads_S1700000_S1703936_039360 h_S_

/-- The edge weights extended by 3936 zeros, as one column. -/
def padWeights (w : (⟨S1700000, .f32⟩ : BufTy).Contents (Elt F)) : (⟨S1703936x1, .f32⟩ : BufTy).Contents (Elt F) :=
  shapeCast _ (pad S1703936 ![0] ![3936] ![0] w (id (constant S_ .f32 0x00000000#32 : (⟨S_, .f32⟩ : BufTy).Contents (Elt F))) pads_S1700000_S1703936_039360 h_S_) shapeCasts_S1703936_S1703936x1

/-- Extended node numbers as a column of gather indices, a negative number counted from the end. -/
def wrapPad (s : (⟨S1703936, .i32⟩ : BufTy).Contents (Elt F)) : (⟨S1703936x1, .i32⟩ : BufTy).Contents (Elt F) :=
  broadcastInDim S1703936x1 ![0] bcast_S1703936_S1703936x1_0 (select (cmpi .slt s (broadcastInDim S1703936 ![] bcast_S_S1703936 (constantI S_ 32 0#32))) (addi s (broadcastInDim S1703936 ![] bcast_S_S1703936 (constantI S_ 32 100000#32))) s)

end Cert.KernelIdeal.Values

end
-- ==== Proof.Carried.lean ====
/-
  Buffers that cross regions unchanged.

  The extended node lists and the column of extended edge weights are computed once, before the first region, and
  read again before or inside every later region; the weight matrices and bias vectors are arguments. No host
  operation after their definition and no region writes any of them, so at every later segment boundary of @main
  each still holds the value it was given: the fold through the segments, read at such a buffer, walks back to it.
-/
import proofs.«130575_j19585050869931_1_alg».proof.Proof.Gen.KernelIdeal.Frame
import proofs.«130575_j19585050869931_1_alg».proof.Proof.KernelValues

set_option maxRecDepth 16384

noncomputable section

namespace Cert.KernelIdeal.Carried

open Idealize.ShloMosaic Idealize.ShloMosaic.TcCoe Idealize.SL.Sem
open Cert.KernelIdeal Cert.KernelIdeal.Gen Cert.KernelIdeal.Values

variable {F : FTy → Type} [FloatOps F]
variable (m : (ℓ : Loc nD τ sig) → Buf (Elt F) ℓ) (ρ : Dev nD → PrngReg)

/-! ## What each stretch of host operations writes, and that it leaves every other buffer alone -/

/-- A result buffer named in a list of references is written inside that list's buffers. -/
private theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- The buffers `hostOps0` writes. -/
private abbrev written0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
/-- `hostOps0` leaves every other buffer as it found it. -/
private theorem unwritten0 (V : Valuation τ sig (Elt F)) {r : Ref sig .tc} (hr : r ∉ written0) :
    StableHlo.after hostOps0 V (Proc.devRef .tc r) = V (Proc.devRef .tc r) :=
  StableHlo.after_of_writes_sub (W := written0) _ V (by
    simp only [hostOps0, List.Forall, StableHlo.nullary_writes, StableHlo.unary_writes, StableHlo.binary_writes,
      StableHlo.ternary_writes, StableHlo.reshape_writes]
    repeat' apply And.intro
    all_goals exact single_sub_of_mem (by decide)) hr

/-- The buffers `hostOps0_1` writes. -/
private abbrev written0_1 : List (Ref sig .tc) := [main_call0_v0, main_call0_v1, main_v16]
/-- `hostOps0_1` leaves every other buffer as it found it. -/
private theorem unwritten0_1 (V : Valuation τ sig (Elt F)) {r : Ref sig .tc} (hr : r ∉ written0_1) :
    StableHlo.after hostOps0_1 V (Proc.devRef .tc r) = V (Proc.devRef .tc r) :=
  StableHlo.after_of_writes_sub (W := written0_1) _ V (by
    simp only [hostOps0_1, List.Forall, StableHlo.nullary_writes, StableHlo.unary_writes, StableHlo.binary_writes,
      StableHlo.ternary_writes, StableHlo.reshape_writes]
    repeat' apply And.intro
    all_goals exact single_sub_of_mem (by decide)) hr

/-- The buffers `hostOps0_2` writes. -/
private abbrev written0_2 : List (Ref sig .tc) := [main_c, main_v17, main_v18, main_c_4, main_v19, main_v20, main_v21, main_v22, main_v23, main_c_5, main_v24, main_v25, main_c_6, main_v26, main_v27, main_v28, main_v29, main_v30, main_v31, main_c_7]
/-- `hostOps0_2` leaves every other buffer as it found it. -/
private theorem unwritten0_2 (V : Valuation τ sig (Elt F)) {r : Ref sig .tc} (hr : r ∉ written0_2) :
    StableHlo.after hostOps0_2 V (Proc.devRef .tc r) = V (Proc.devRef .tc r) :=
  StableHlo.after_of_writes_sub (W := written0_2) _ V (by
    simp only [hostOps0_2, List.Forall, StableHlo.nullary_writes, StableHlo.unary_writes, StableHlo.binary_writes,
      StableHlo.ternary_writes, StableHlo.reshape_writes]
    repeat' apply And.intro
    all_goals exact single_sub_of_mem (by decide)) hr

/-- The buffers `hostOps0_3` writes. -/
private abbrev written0_3 : List (Ref sig .tc) := [main_call1_v0, main_v32]
/-- `hostOps0_3` leaves every other buffer as it found it. -/
private theorem unwritten0_3 (V : Valuation τ sig (Elt F)) {r : Ref sig .tc} (hr : r ∉ written0_3) :
    StableHlo.after hostOps0_3 V (Proc.devRef .tc r) = V (Proc.devRef .tc r) :=
  StableHlo.after_of_writes_sub (W := written0_3) _ V (by
    simp only [hostOps0_3, List.Forall, StableHlo.nullary_writes, StableHlo.unary_writes, StableHlo.binary_writes,
      StableHlo.ternary_writes, StableHlo.reshape_writes]
    repeat' apply And.intro
    all_goals exact single_sub_of_mem (by decide)) hr

/-- The buffers `hostOps0_4` writes. -/
private abbrev written0_4 : List (Ref sig .tc) := [main_c_8]
/-- `hostOps0_4` leaves every other buffer as it found it. -/
private theorem unwritten0_4 (V : Valuation τ sig (Elt F)) {r : Ref sig .tc} (hr : r ∉ written0_4) :
    StableHlo.after hostOps0_4 V (Proc.devRef .tc r) = V (Proc.devRef .tc r) :=
  StableHlo.after_of_writes_sub (W := written0_4) _ V (by
    simp only [hostOps0_4, List.Forall, StableHlo.nullary_writes, StableHlo.unary_writes, StableHlo.binary_writes,
      StableHlo.ternary_writes, StableHlo.reshape_writes]
    repeat' apply And.intro
    all_goals exact single_sub_of_mem (by decide)) hr

/-- The buffers `hostOps0_5` writes. -/
private abbrev written0_5 : List (Ref sig .tc) := [main_call2_v0, main_v33]
/-- `hostOps0_5` leaves every other buffer as it found it. -/
private theorem unwritten0_5 (V : Valuation τ sig (Elt F)) {r : Ref sig .tc} (hr : r ∉ written0_5) :
    StableHlo.after hostOps0_5 V (Proc.devRef .tc r) = V (Proc.devRef .tc r) :=
  StableHlo.after_of_writes_sub (W := written0_5) _ V (by
    simp only [hostOps0_5, List.Forall, StableHlo.nullary_writes, StableHlo.unary_writes, StableHlo.binary_writes,
      StableHlo.ternary_writes, StableHlo.reshape_writes]
    repeat' apply And.intro
    all_goals exact single_sub_of_mem (by decide)) hr

/-- The buffers `hostOps0_6` writes. -/
private abbrev written0_6 : List (Ref sig .tc) := [main_cst_9]
/-- `hostOps0_6` leaves every other buffer as it found it. -/
private theorem unwritten0_6 (V : Valuation τ sig (Elt F)) {r : Ref sig .tc} (hr : r ∉ written0_6) :
    StableHlo.after hostOps0_6 V (Proc.devRef .tc r) = V (Proc.devRef .tc r) :=
  StableHlo.after_of_writes_sub (W := written0_6) _ V (by
    simp only [hostOps0_6, List.Forall, StableHlo.nullary_writes, StableHlo.unary_writes, StableHlo.binary_writes,
      StableHlo.ternary_writes, StableHlo.reshape_writes]
    repeat' apply And.intro
    all_goals exact single_sub_of_mem (by decide)) hr

/-- The buffers `hostOps0_7` writes. -/
private abbrev written0_7 : List (Ref sig .tc) := [main_call3_v0, main_v34]
/-- `hostOps0_7` leaves every other buffer as it found it. -/
private theorem unwritten0_7 (V : Valuation τ sig (Elt F)) {r : Ref sig .tc} (hr : r ∉ written0_7) :
    StableHlo.after hostOps0_7 V (Proc.devRef .tc r) = V (Proc.devRef .tc r) :=
  StableHlo.after_of_writes_sub (W := written0_7) _ V (by
    simp only [hostOps0_7, List.Forall, StableHlo.nullary_writes, StableHlo.unary_writes, StableHlo.binary_writes,
      StableHlo.ternary_writes, StableHlo.reshape_writes]
    repeat' apply And.intro
    all_goals exact single_sub_of_mem (by decide)) hr

/-- The buffers `hostOps0_8` writes. -/
private abbrev written0_8 : List (Ref sig .tc) := [main_v35]
/-- `hostOps0_8` leaves every other buffer as it found it. -/
private theorem unwritten0_8 (V : Valuation τ sig (Elt F)) {r : Ref sig .tc} (hr : r ∉ written0_8) :
    StableHlo.after hostOps0_8 V (Proc.devRef .tc r) = V (Proc.devRef .tc r) :=
  StableHlo.after_of_writes_sub (W := written0_8) _ V (by
    simp only [hostOps0_8, List.Forall, StableHlo.nullary_writes, StableHlo.unary_writes, StableHlo.binary_writes,
      StableHlo.ternary_writes, StableHlo.reshape_writes]
    repeat' apply And.intro
    all_goals exact single_sub_of_mem (by decide)) hr

/-- The buffers `hostOps1` writes. -/
private abbrev written1 : List (Ref sig .tc) := [main_c_10, main_v37, main_v38, main_c_11, main_v39, main_v40, main_v41, main_v42, main_v43]
/-- `hostOps1` leaves every other buffer as it found it. -/
private theorem unwritten1 (V : Valuation τ sig (Elt F)) {r : Ref sig .tc} (hr : r ∉ written1) :
    StableHlo.after hostOps1 V (Proc.devRef .tc r) = V (Proc.devRef .tc r) :=
  StableHlo.after_of_writes_sub (W := written1) _ V (by
    simp only [hostOps1, List.Forall, StableHlo.nullary_writes, StableHlo.unary_writes, StableHlo.binary_writes,
      StableHlo.ternary_writes, StableHlo.reshape_writes]
    repeat' apply And.intro
    all_goals exact single_sub_of_mem (by decide)) hr

/-- The buffers `hostOps2` writes. -/
private abbrev written2 : List (Ref sig .tc) := [main_cst_12, main_v45, main_v46, main_v47, main_v48]
/-- `hostOps2` leaves every other buffer as it found it. -/
private theorem unwritten2 (V : Valuation τ sig (Elt F)) {r : Ref sig .tc} (hr : r ∉ written2) :
    StableHlo.after hostOps2 V (Proc.devRef .tc r) = V (Proc.devRef .tc r) :=
  StableHlo.after_of_writes_sub (W := written2) _ V (by
    simp only [hostOps2, List.Forall, StableHlo.nullary_writes, StableHlo.unary_writes, StableHlo.binary_writes,
      StableHlo.ternary_writes, StableHlo.reshape_writes]
    repeat' apply And.intro
    all_goals exact single_sub_of_mem (by decide)) hr

/-- The buffers `hostOps3` writes. -/
private abbrev written3 : List (Ref sig .tc) := [main_c_13, main_v50, main_v51, main_c_14, main_v52, main_v53, main_v54, main_v55, main_v56]
/-- `hostOps3` leaves every other buffer as it found it. -/
private theorem unwritten3 (V : Valuation τ sig (Elt F)) {r : Ref sig .tc} (hr : r ∉ written3) :
    StableHlo.after hostOps3 V (Proc.devRef .tc r) = V (Proc.devRef .tc r) :=
  StableHlo.after_of_writes_sub (W := written3) _ V (by
    simp only [hostOps3, List.Forall, StableHlo.nullary_writes, StableHlo.unary_writes, StableHlo.binary_writes,
      StableHlo.ternary_writes, StableHlo.reshape_writes]
    repeat' apply And.intro
    all_goals exact single_sub_of_mem (by decide)) hr

/-- The buffers `hostOps4` writes. -/
private abbrev written4 : List (Ref sig .tc) := [main_cst_15, main_v58, main_v59, main_v60, main_v61]
/-- `hostOps4` leaves every other buffer as it found it. -/
private theorem unwritten4 (V : Valuation τ sig (Elt F)) {r : Ref sig .tc} (hr : r ∉ written4) :
    StableHlo.after hostOps4 V (Proc.devRef .tc r) = V (Proc.devRef .tc r) :=
  StableHlo.after_of_writes_sub (W := written4) _ V (by
    simp only [hostOps4, List.Forall, StableHlo.nullary_writes, StableHlo.unary_writes, StableHlo.binary_writes,
      StableHlo.ternary_writes, StableHlo.reshape_writes]
    repeat' apply And.intro
    all_goals exact single_sub_of_mem (by decide)) hr

/-- The buffers `hostOps5` writes. -/
private abbrev written5 : List (Ref sig .tc) := [main_c_16, main_v63, main_v64, main_c_17, main_v65, main_v66, main_v67, main_v68, main_v69]
/-- `hostOps5` leaves every other buffer as it found it. -/
private theorem unwritten5 (V : Valuation τ sig (Elt F)) {r : Ref sig .tc} (hr : r ∉ written5) :
    StableHlo.after hostOps5 V (Proc.devRef .tc r) = V (Proc.devRef .tc r) :=
  StableHlo.after_of_writes_sub (W := written5) _ V (by
    simp only [hostOps5, List.Forall, StableHlo.nullary_writes, StableHlo.unary_writes, StableHlo.binary_writes,
      StableHlo.ternary_writes, StableHlo.reshape_writes]
    repeat' apply And.intro
    all_goals exact single_sub_of_mem (by decide)) hr

/-! ## What the host operations before the first region compute, stretch by stretch, from any contents `V` -/

/-- The source list: row 0 of the edge list, then the self-loops. -/
private theorem src_after0 (V : Valuation τ sig (Elt F)) :
    StableHlo.after hostOps0 V (Proc.devRef .tc main_v3) = srcOf (V (Proc.devRef .tc main_arg1)) := by
  unfold srcOf
  after_results
  rfl

/-- The destination list: row 1 of the edge list, then the self-loops. -/
private theorem dst_after0 (V : Valuation τ sig (Elt F)) :
    StableHlo.after hostOps0 V (Proc.devRef .tc main_v6) = dstOf (V (Proc.devRef .tc main_arg1)) := by
  unfold dstOf
  after_results
  rfl

/-- Where the arrival count is positive. -/
private theorem pos_after0 (V : Valuation τ sig (Elt F)) :
    StableHlo.after hostOps0 V (Proc.devRef .tc main_v12)
      = cmpf (F := F) .ogt (degOf (dstOf (V (Proc.devRef .tc main_arg1)))) (broadcastInDim S100000 ![] bcast_S_S100000 (constant S_ .f32 0x00000000#32)) := by
  unfold degOf dstOf
  after_results
  rfl

/-- The reciprocal square root of the arrival count clamped at one from below. -/
private theorem rsqrt_after0 (V : Valuation τ sig (Elt F)) :
    StableHlo.after hostOps0 V (Proc.devRef .tc main_v15)
      = Host.rsqrt (maximumf (degOf (dstOf (V (Proc.devRef .tc main_arg1)))) (broadcastInDim S100000 ![] bcast_S_S100000 (constant S_ .f32 0x3F800000#32))) := by
  unfold degOf dstOf
  after_results
  rfl

/-- The zero chosen where the count is not positive. -/
private theorem zero_after0 (V : Valuation τ sig (Elt F)) :
    StableHlo.after hostOps0 V (Proc.devRef .tc main_cst_3) = (constant S_ .f32 0x00000000#32 : (⟨S_, .f32⟩ : BufTy).Contents (Elt F)) := by
  after_results

/-- The choice between the two, node by node. -/
private theorem dinv_after0_1 (V : Valuation τ sig (Elt F))
    {p : (⟨S100000, .i1⟩ : BufTy).Contents (Elt F)} {q : (⟨S100000, .f32⟩ : BufTy).Contents (Elt F)} {z : (⟨S_, .f32⟩ : BufTy).Contents (Elt F)}
    (hp : V (Proc.devRef .tc main_v12) = p) (hq : V (Proc.devRef .tc main_v15) = q) (hz : V (Proc.devRef .tc main_cst_3) = z) :
    StableHlo.after hostOps0_1 V (Proc.devRef .tc main_v16) = select p q (broadcastInDim S100000 ![] bcast_S_S100000 (id z)) := by
  subst hp hq hz
  after_results
  simp only [StableHlo.TRef.ofBuf, StableHlo.TRef.toBuf, cast_eq]

/-- The edge weights: the two gathers of the node factors, multiplied. -/
private theorem norm_after0_2 (V : Valuation τ sig (Elt F))
    {d : (⟨S100000, .f32⟩ : BufTy).Contents (Elt F)} {s t : (⟨S1700000, .i32⟩ : BufTy).Contents (Elt F)}
    (hd : V (Proc.devRef .tc main_v16) = d) (hs : V (Proc.devRef .tc main_v3) = s) (ht : V (Proc.devRef .tc main_v6) = t) :
    StableHlo.after hostOps0_2 V (Proc.devRef .tc main_v31)
      = mulf (Host.gather gather_S100000_S1700000x1_S1700000_n_0_n_n_0_1_1 d (wrapOf s))
          (Host.gather gather_S100000_S1700000x1_S1700000_n_0_n_n_0_1_1 d (wrapOf t)) := by
  subst hd hs ht
  unfold wrapOf
  after_results_simp

/-- The node number the node lists are extended by. -/
private theorem fill_after0_2 (V : Valuation τ sig (Elt F)) :
    StableHlo.after hostOps0_2 V (Proc.devRef .tc main_c_7) = (constantI S_ 32 0#32 : (⟨S_, .i32⟩ : BufTy).Contents (Elt F)) := by
  after_results

/-- The extended source list. -/
private theorem padSrc_after0_3 (V : Valuation τ sig (Elt F))
    {s : (⟨S1700000, .i32⟩ : BufTy).Contents (Elt F)} {z : (⟨S_, .i32⟩ : BufTy).Contents (Elt F)}
    (hs : V (Proc.devRef .tc main_v3) = s) (hz : V (Proc.devRef .tc main_c_7) = z) :
    StableHlo.after hostOps0_3 V (Proc.devRef .tc main_v32)
      = pad S1703936 ![0] ![3936] ![0] s (id z) pads_S1700000_S1703936_039360 h_S_ := by
  subst hs hz
  after_results
  simp only [StableHlo.TRef.ofBuf, StableHlo.TRef.toBuf, cast_eq]

/-- The node number the destination list is extended by. -/
private theorem fill_after0_4 (V : Valuation τ sig (Elt F)) :
    StableHlo.after hostOps0_4 V (Proc.devRef .tc main_c_8) = (constantI S_ 32 0#32 : (⟨S_, .i32⟩ : BufTy).Contents (Elt F)) := by
  after_results

/-- The extended destination list. -/
private theorem padDst_after0_5 (V : Valuation τ sig (Elt F))
    {s : (⟨S1700000, .i32⟩ : BufTy).Contents (Elt F)} {z : (⟨S_, .i32⟩ : BufTy).Contents (Elt F)}
    (hs : V (Proc.devRef .tc main_v6) = s) (hz : V (Proc.devRef .tc main_c_8) = z) :
    StableHlo.after hostOps0_5 V (Proc.devRef .tc main_v33)
      = pad S1703936 ![0] ![3936] ![0] s (id z) pads_S1700000_S1703936_039360 h_S_ := by
  subst hs hz
  after_results
  simp only [StableHlo.TRef.ofBuf, StableHlo.TRef.toBuf, cast_eq]

/-- The weight the edge weights are extended by. -/
private theorem fill_after0_6 (V : Valuation τ sig (Elt F)) :
    StableHlo.after hostOps0_6 V (Proc.devRef .tc main_cst_9) = (constant S_ .f32 0x00000000#32 : (⟨S_, .f32⟩ : BufTy).Contents (Elt F)) := by
  after_results

/-- The extended edge weights. -/
private theorem padNorm_after0_7 (V : Valuation τ sig (Elt F))
    {w : (⟨S1700000, .f32⟩ : BufTy).Contents (Elt F)} {z : (⟨S_, .f32⟩ : BufTy).Contents (Elt F)}
    (hw : V (Proc.devRef .tc main_v31) = w) (hz : V (Proc.devRef .tc main_cst_9) = z) :
    StableHlo.after hostOps0_7 V (Proc.devRef .tc main_v34)
      = pad S1703936 ![0] ![3936] ![0] w (id z) pads_S1700000_S1703936_039360 h_S_ := by
  subst hw hz
  after_results
  simp only [StableHlo.TRef.ofBuf, StableHlo.TRef.toBuf, cast_eq]

/-- The extended edge weights as one column. -/
private theorem column_after0_8 (V : Valuation τ sig (Elt F))
    {w : (⟨S1703936, .f32⟩ : BufTy).Contents (Elt F)} (hw : V (Proc.devRef .tc main_v34) = w) :
    StableHlo.after hostOps0_8 V (Proc.devRef .tc main_v35) = shapeCast _ w shapeCasts_S1703936_S1703936x1 := by
  subst hw
  after_results
  rfl

/-! ## The values before the first region, at the boundaries where each is written or read -/

section Prefix

variable (c : Dev nD)

private theorem src_at1 : W1 m ρ c (Proc.devRef .tc main_v3) = srcOf (m ((c : Thread nD τ).loc main_arg1)) :=
  src_after0 (W0 m ρ c)
private theorem dst_at1 : W1 m ρ c (Proc.devRef .tc main_v6) = dstOf (m ((c : Thread nD τ).loc main_arg1)) :=
  dst_after0 (W0 m ρ c)
private theorem src_at2 : W2 m ρ c (Proc.devRef .tc main_v3) = srcOf (m ((c : Thread nD τ).loc main_arg1)) :=
  (unwritten0_1 _ (by decide)).trans (src_at1 m ρ c)
private theorem dst_at2 : W2 m ρ c (Proc.devRef .tc main_v6) = dstOf (m ((c : Thread nD τ).loc main_arg1)) :=
  (unwritten0_1 _ (by decide)).trans (dst_at1 m ρ c)
private theorem dinv_at2 : W2 m ρ c (Proc.devRef .tc main_v16) = dinvOf (dstOf (m ((c : Thread nD τ).loc main_arg1))) :=
  dinv_after0_1 (W1 m ρ c) (pos_after0 (W0 m ρ c)) (rsqrt_after0 (W0 m ρ c)) (zero_after0 (W0 m ρ c))
private theorem src_at3 : W3 m ρ c (Proc.devRef .tc main_v3) = srcOf (m ((c : Thread nD τ).loc main_arg1)) :=
  (unwritten0_2 _ (by decide)).trans (src_at2 m ρ c)
private theorem dst_at3 : W3 m ρ c (Proc.devRef .tc main_v6) = dstOf (m ((c : Thread nD τ).loc main_arg1)) :=
  (unwritten0_2 _ (by decide)).trans (dst_at2 m ρ c)
private theorem norm_at3 :
    W3 m ρ c (Proc.devRef .tc main_v31) = normOf (srcOf (m ((c : Thread nD τ).loc main_arg1))) (dstOf (m ((c : Thread nD τ).loc main_arg1))) :=
  norm_after0_2 (W2 m ρ c) (dinv_at2 m ρ c) (src_at2 m ρ c) (dst_at2 m ρ c)
private theorem src_at4 : W4 m ρ c (Proc.devRef .tc main_v32) = padNodes (srcOf (m ((c : Thread nD τ).loc main_arg1))) :=
  padSrc_after0_3 (W3 m ρ c) (src_at3 m ρ c) (fill_after0_2 (W2 m ρ c))
private theorem dst_at5 : W5 m ρ c (Proc.devRef .tc main_v6) = dstOf (m ((c : Thread nD τ).loc main_arg1)) :=
  (unwritten0_4 _ (by decide)).trans ((unwritten0_3 _ (by decide)).trans (dst_at3 m ρ c))
private theorem dst_at6 : W6 m ρ c (Proc.devRef .tc main_v33) = padNodes (dstOf (m ((c : Thread nD τ).loc main_arg1))) :=
  padDst_after0_5 (W5 m ρ c) (dst_at5 m ρ c) (fill_after0_4 (W4 m ρ c))
private theorem norm_at7 :
    W7 m ρ c (Proc.devRef .tc main_v31) = normOf (srcOf (m ((c : Thread nD τ).loc main_arg1))) (dstOf (m ((c : Thread nD τ).loc main_arg1))) :=
  (unwritten0_6 _ (by decide)).trans ((unwritten0_5 _ (by decide)).trans ((unwritten0_4 _ (by decide)).trans
    ((unwritten0_3 _ (by decide)).trans (norm_at3 m ρ c))))
private theorem weights_at9 :
    W9 m ρ c (Proc.devRef .tc main_v35) = padWeights (normOf (srcOf (m ((c : Thread nD τ).loc main_arg1))) (dstOf (m ((c : Thread nD τ).loc main_arg1)))) :=
  column_after0_8 (W8 m ρ c) (padNorm_after0_7 (W7 m ρ c) (norm_at7 m ρ c) (fill_after0_6 (W6 m ρ c)))

end Prefix

/-! ## A buffer that neither a stretch of host operations writes nor a region has among its arrays, across both -/

section Across

variable (c : Dev nD) (r : Ref sig .tc)

/-- Across region 0, the host operations after it and region 1. -/
private theorem across_0_1 (h0 : ∀ w, Pipeline.arrRef spec0 w ≠ r) (h1 : r ∉ written1) (h2 : ∀ w, Pipeline.arrRef spec1 w ≠ r) :
    W12 m ρ c (Proc.devRef .tc r) = W9 m ρ c (Proc.devRef .tc r) :=
  (W12_of_ne m ρ c r h2).trans ((unwritten1 _ h1).trans (W10_of_ne m ρ c r h0))

/-- Across the host operations after region 1, region 2, the host operations after it and region 3. -/
private theorem across_2_3 (h0 : r ∉ written2) (h1 : ∀ w, Pipeline.arrRef spec2 w ≠ r) (h2 : r ∉ written3)
    (h3 : ∀ w, Pipeline.arrRef spec3 w ≠ r) :
    W16 m ρ c (Proc.devRef .tc r) = W12 m ρ c (Proc.devRef .tc r) :=
  (W16_of_ne m ρ c r h3).trans ((unwritten3 _ h2).trans ((W14_of_ne m ρ c r h1).trans (unwritten2 _ h0)))

/-- Across the host operations after region 3, region 4, the host operations after it and region 5. -/
private theorem across_4_5 (h0 : r ∉ written4) (h1 : ∀ w, Pipeline.arrRef spec4 w ≠ r) (h2 : r ∉ written5)
    (h3 : ∀ w, Pipeline.arrRef spec5 w ≠ r) :
    W20 m ρ c (Proc.devRef .tc r) = W16 m ρ c (Proc.devRef .tc r) :=
  (W20_of_ne m ρ c r h3).trans ((unwritten5 _ h2).trans ((W18_of_ne m ρ c r h1).trans (unwritten4 _ h0)))

/-- A buffer none of the host operations before the first region writes holds at region 0's entry what it held at launch. -/
private theorem launched_at9
    (hr : r ∉ written0 ∧ r ∉ written0_1 ∧ r ∉ written0_2 ∧ r ∉ written0_3 ∧ r ∉ written0_4 ∧ r ∉ written0_5 ∧ r ∉ written0_6
      ∧ r ∉ written0_7 ∧ r ∉ written0_8) :
    W9 m ρ c (Proc.devRef .tc r) = m ((c : Thread nD τ).loc r) :=
  (unwritten0_8 _ hr.2.2.2.2.2.2.2.2).trans ((unwritten0_7 _ hr.2.2.2.2.2.2.2.1).trans ((unwritten0_6 _ hr.2.2.2.2.2.2.1).trans
    ((unwritten0_5 _ hr.2.2.2.2.2.1).trans ((unwritten0_4 _ hr.2.2.2.2.1).trans ((unwritten0_3 _ hr.2.2.2.1).trans
      ((unwritten0_2 _ hr.2.2.1).trans ((unwritten0_1 _ hr.2.1).trans (unwritten0 (W0 m ρ c) hr.1))))))))

end Across

/-- The extended source list at region 0's entry. -/
private theorem src_at9 (c : Dev nD) : W9 m ρ c (Proc.devRef .tc main_v32) = padNodes (srcOf (m ((c : Thread nD τ).loc main_arg1))) :=
  (unwritten0_8 _ (by decide)).trans ((unwritten0_7 _ (by decide)).trans ((unwritten0_6 _ (by decide)).trans
    ((unwritten0_5 _ (by decide)).trans ((unwritten0_4 _ (by decide)).trans (src_at4 m ρ c)))))

/-- The extended destination list at region 0's entry. -/
private theorem dst_at9 (c : Dev nD) : W9 m ρ c (Proc.devRef .tc main_v33) = padNodes (dstOf (m ((c : Thread nD τ).loc main_arg1))) :=
  (unwritten0_8 _ (by decide)).trans ((unwritten0_7 _ (by decide)).trans ((unwritten0_6 _ (by decide)).trans (dst_at6 m ρ c)))

/-! ## The extended source list, where the three row gathers read it -/

theorem src_at10 (c : Dev nD) : W10 m ρ c (Proc.devRef .tc main_v32) = padNodes (srcOf (m ((c : Thread nD τ).loc main_arg1))) := by
  exact (W10_of_ne m ρ c main_v32 (by decide)).trans (src_at9 m ρ c)
theorem src_at14 (c : Dev nD) : W14 m ρ c (Proc.devRef .tc main_v32) = padNodes (srcOf (m ((c : Thread nD τ).loc main_arg1))) := by
  exact (W14_of_ne m ρ c main_v32 (by decide)).trans ((unwritten2 _ (by decide)).trans ((W12_of_ne m ρ c main_v32 (by decide)).trans
    ((unwritten1 _ (by decide)).trans (src_at10 m ρ c))))
theorem src_at18 (c : Dev nD) : W18 m ρ c (Proc.devRef .tc main_v32) = padNodes (srcOf (m ((c : Thread nD τ).loc main_arg1))) := by
  exact (W18_of_ne m ρ c main_v32 (by decide)).trans ((unwritten4 _ (by decide)).trans ((W16_of_ne m ρ c main_v32 (by decide)).trans
    ((unwritten3 _ (by decide)).trans (src_at14 m ρ c))))

/-! ## The extended destination list, where the three accumulations read it -/

theorem dst_at12 (c : Dev nD) : W12 m ρ c (Proc.devRef .tc main_v33) = padNodes (dstOf (m ((c : Thread nD τ).loc main_arg1))) := by
  exact (across_0_1 m ρ c main_v33 (by decide) (by decide) (by decide)).trans (dst_at9 m ρ c)
theorem dst_at16 (c : Dev nD) : W16 m ρ c (Proc.devRef .tc main_v33) = padNodes (dstOf (m ((c : Thread nD τ).loc main_arg1))) := by
  exact (across_2_3 m ρ c main_v33 (by decide) (by decide) (by decide) (by decide)).trans (dst_at12 m ρ c)
theorem dst_at20 (c : Dev nD) : W20 m ρ c (Proc.devRef .tc main_v33) = padNodes (dstOf (m ((c : Thread nD τ).loc main_arg1))) := by
  exact (across_4_5 m ρ c main_v33 (by decide) (by decide) (by decide) (by decide)).trans (dst_at16 m ρ c)

/-! ## The column of extended edge weights, where the three scaling regions are entered -/

theorem weights_at11 (c : Dev nD) :
    W11 m ρ c (Proc.devRef .tc main_v35) = padWeights (normOf (srcOf (m ((c : Thread nD τ).loc main_arg1))) (dstOf (m ((c : Thread nD τ).loc main_arg1)))) := by
  exact (unwritten1 _ (by decide)).trans ((W10_of_ne m ρ c main_v35 (by decide)).trans (weights_at9 m ρ c))
theorem weights_at15 (c : Dev nD) :
    W15 m ρ c (Proc.devRef .tc main_v35) = padWeights (normOf (srcOf (m ((c : Thread nD τ).loc main_arg1))) (dstOf (m ((c : Thread nD τ).loc main_arg1)))) := by
  -- region 1 reads the column through its input window 0 and leaves it as entered
  have e12 : W12 m ρ c (Proc.devRef .tc main_v35) = W11 m ρ c (Proc.devRef .tc main_v35) :=
    (W12_arr m ρ c 0).trans (((dat1 (V11 m ρ) c).arrAt_in 0 rfl _).trans (A_eq1 (V11 m ρ) c 0))
  exact (unwritten3 _ (by decide)).trans ((W14_of_ne m ρ c main_v35 (by decide)).trans ((unwritten2 _ (by decide)).trans
    (e12.trans (weights_at11 m ρ c))))
theorem weights_at19 (c : Dev nD) :
    W19 m ρ c (Proc.devRef .tc main_v35) = padWeights (normOf (srcOf (m ((c : Thread nD τ).loc main_arg1))) (dstOf (m ((c : Thread nD τ).loc main_arg1)))) := by
  -- region 3 reads the column through its input window 0 and leaves it as entered
  have e16 : W16 m ρ c (Proc.devRef .tc main_v35) = W15 m ρ c (Proc.devRef .tc main_v35) :=
    (W16_arr m ρ c 0).trans (((dat3 (V15 m ρ) c).arrAt_in 0 rfl _).trans (A_eq3 (V15 m ρ) c 0))
  exact (unwritten5 _ (by decide)).trans ((W18_of_ne m ρ c main_v35 (by decide)).trans ((unwritten4 _ (by decide)).trans
    (e16.trans (weights_at15 m ρ c))))

/-! ## The arguments, where a region or a host operation reads them -/

theorem feats_at9 (c : Dev nD) : W9 m ρ c (Proc.devRef .tc main_arg0) = m ((c : Thread nD τ).loc main_arg0) := by
  exact launched_at9 m ρ c main_arg0 (by decide)
theorem wmat1_at9 (c : Dev nD) : W9 m ρ c (Proc.devRef .tc main_arg2) = m ((c : Thread nD τ).loc main_arg2) := by
  exact launched_at9 m ρ c main_arg2 (by decide)
theorem bias1_at12 (c : Dev nD) : W12 m ρ c (Proc.devRef .tc main_arg3) = m ((c : Thread nD τ).loc main_arg3) := by
  exact (across_0_1 m ρ c main_arg3 (by decide) (by decide) (by decide)).trans (launched_at9 m ρ c main_arg3 (by decide))
theorem wmat2_at13 (c : Dev nD) : W13 m ρ c (Proc.devRef .tc main_arg4) = m ((c : Thread nD τ).loc main_arg4) := by
  exact (unwritten2 _ (by decide)).trans ((across_0_1 m ρ c main_arg4 (by decide) (by decide) (by decide)).trans
    (launched_at9 m ρ c main_arg4 (by decide)))
theorem bias2_at16 (c : Dev nD) : W16 m ρ c (Proc.devRef .tc main_arg5) = m ((c : Thread nD τ).loc main_arg5) := by
  exact (across_2_3 m ρ c main_arg5 (by decide) (by decide) (by decide) (by decide)).trans
    ((across_0_1 m ρ c main_arg5 (by decide) (by decide) (by decide)).trans (launched_at9 m ρ c main_arg5 (by decide)))
theorem wmat3_at17 (c : Dev nD) : W17 m ρ c (Proc.devRef .tc main_arg6) = m ((c : Thread nD τ).loc main_arg6) := by
  exact (unwritten4 _ (by decide)).trans ((across_2_3 m ρ c main_arg6 (by decide) (by decide) (by decide) (by decide)).trans
    ((across_0_1 m ρ c main_arg6 (by decide) (by decide) (by decide)).trans (launched_at9 m ρ c main_arg6 (by decide))))
theorem bias3_at20 (c : Dev nD) : W20 m ρ c (Proc.devRef .tc main_arg7) = m ((c : Thread nD τ).loc main_arg7) := by
  exact (across_4_5 m ρ c main_arg7 (by decide) (by decide) (by decide) (by decide)).trans
    ((across_2_3 m ρ c main_arg7 (by decide) (by decide) (by decide) (by decide)).trans
      ((across_0_1 m ρ c main_arg7 (by decide) (by decide) (by decide)).trans (launched_at9 m ρ c main_arg7 (by decide))))

end Cert.KernelIdeal.Carried

end
-- ==== Proof.ScaleRegions.lean ====
/-
  The three scaling regions (the message kernels of the three layers), read as whole arrays.

  Each region multiplies row `e` of a gathered array `[1703936, D]` by the weight `norm[e]` of edge `e`, block by
  block of 8192 rows. After the region every entry `(e, q)` of its output array is `norm (e, 0) * rows (e, q)` of the
  arrays the region found on entry: the 208 blocks tile the array, and each block's body is the pointwise product
  of the weight column, broadcast along the row, with the block of rows.
-/
import proofs.«130575_j19585050869931_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.ScaleRegions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The edge weights, one column, as the regions find them. -/
abbrev weights (c : Dev nD) : FVec Ideal S1703936x1 .f32 := V c main_v35

/-- Layer 1: the gathered rows on entry and the messages after the region. -/
abbrev rows1 (c : Dev nD) : FVec Ideal S1703936x64 .f32 := V c main_v43
abbrev msgs1 (c : Dev nD) : FVec Ideal S1703936x64 .f32 := (dat1 V c).arrAt 2 cfg1.N
/-- Layer 2. -/
abbrev rows2 (c : Dev nD) : FVec Ideal S1703936x32 .f32 := V c main_v56
abbrev msgs2 (c : Dev nD) : FVec Ideal S1703936x32 .f32 := (dat3 V c).arrAt 2 cfg3.N
/-- Layer 3. -/
abbrev rows3 (c : Dev nD) : FVec Ideal S1703936x2 .f32 := V c main_v69
abbrev msgs3 (c : Dev nD) : FVec Ideal S1703936x2 .f32 := (dat5 V c).arrAt 2 cfg5.N

theorem arrRefs :
    Pipeline.arrRef spec1 0 = main_v35 ∧ Pipeline.arrRef spec1 1 = main_v43 ∧ Pipeline.arrRef spec1 2 = main_v44
    ∧ Pipeline.arrRef spec3 0 = main_v35 ∧ Pipeline.arrRef spec3 1 = main_v56 ∧ Pipeline.arrRef spec3 2 = main_v57
    ∧ Pipeline.arrRef spec5 0 = main_v35 ∧ Pipeline.arrRef spec5 1 = main_v69 ∧ Pipeline.arrRef spec5 2 = main_v70 :=
  ⟨rfl, rfl, rfl, rfl, rfl, rfl, rfl, rfl, rfl⟩

/-- The zero offsets of a store or load of a whole staging buffer. -/
private theorem zeros2 : (![0, 0] : Fin 2 → Nat) = fun _ => 0 :=
  funext fun a => by match a with | ⟨0, _⟩ => rfl | ⟨1, _⟩ => rfl

/-! ## Layer 1: region 1, rows of width 64 -/

/-- At point `t` each of the region's three windows is on block `t` of its array: block row `t`, block column `0`. -/
private theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's arithmetic at row `r`, column `q` of a block: the weight column's entry of row `r`, repeated along
    the row, times the entry `(r, q)` of the block of rows. -/
private theorem payload1 (x0 : Vec Ideal S8192x1 .f32) (x1 : Vec Ideal S8192x64 .f32) (r : Fin 8192) (q : Fin 64) :
    k1_pay1 x0 x1 (ix2 r q) = x0 (ix2 r (0 : Fin 1)) * x1 (ix2 r q) := by
  unfold k1_pay1
  simp only [shapeCast_self]
  rw [mulf_apply]
  refine congrArg (· * x1 (ix2 r q)) ?_
  refine broadcastTo_apply _ _ _ _ fun a => ?_
  match a with
  | ⟨0, _⟩ => rfl
  | ⟨1, _⟩ => rfl

/-- The same at any index of the block. -/
private theorem payload1_at (x0 : Vec Ideal S8192x1 .f32) (x1 : Vec Ideal S8192x64 .f32) (y : S8192x64.Idx) :
    k1_pay1 x0 x1 y = x0 (ix2 (y 0) (0 : Fin 1)) * x1 y := by
  obtain ⟨r, q, rfl⟩ : ∃ (r : Fin 8192) (q : Fin 64), y = ix2 r q := ⟨y 0, y 1, eq_ix2 y⟩
  exact payload1 x0 x1 r q

/-- Entry `y` of the weight block at point `t` is entry `k` of the weight column, `k` being `8192 t` rows further down. -/
private theorem weightBlock1 (c : Dev nD) (t : Fin cfg1.N) (y : S8192x1.Idx) (k : S1703936x1.Idx)
    (h0 : (k 0).val = 8192 * t.val + (y 0).val) (h1 : (k 1).val = (y 1).val) :
    (iblk1 V c 0 t : Vec Ideal S8192x1 .f32) y = weights V c k := by
  obtain ⟨e0, e1, -⟩ := index1 t
  unfold iblk1
  rw [View.read_apply]
  show V c main_v35 _ = V c main_v35 _
  refine congrArg (V c main_v35) (funext fun a => Fin.ext ?_)
  match a with
  | ⟨0, _⟩ => show win1_0.index t 0 * 8192 + 1 * (y 0).val = (k 0).val; rw [e0, h0]; omega
  | ⟨1, _⟩ => show win1_0.index t 1 * 1 + 1 * (y 1).val = (k 1).val; rw [e1, h1]; omega

/-- Entry `y` of the block of rows at point `t` is entry `k` of the gathered array, `k` being `8192 t` rows further down. -/
private theorem rowBlock1 (c : Dev nD) (t : Fin cfg1.N) (y : S8192x64.Idx) (k : S1703936x64.Idx)
    (h0 : (k 0).val = 8192 * t.val + (y 0).val) (h1 : (k 1).val = (y 1).val) :
    (iblk1 V c 1 t : Vec Ideal S8192x64 .f32) y = rows1 V c k := by
  obtain ⟨-, -, e0, e1, -⟩ := index1 t
  unfold iblk1
  rw [View.read_apply]
  show V c main_v43 _ = V c main_v43 _
  refine congrArg (V c main_v43) (funext fun a => Fin.ext ?_)
  match a with
  | ⟨0, _⟩ => show win1_1.index t 0 * 8192 + 1 * (y 0).val = (k 0).val; rw [e0, h0]; omega
  | ⟨1, _⟩ => show win1_1.index t 1 * 64 + 1 * (y 1).val = (k 1).val; rw [e1, h1]; omega

/-- The first layer's messages as one array: every row of the gathered array times its edge's weight. -/
private abbrev scaled1 (c : Dev nD) : FVec Ideal S1703936x64 .f32 :=
  fun i => weights V c (ix2 (i 0) (0 : Fin 1)) * rows1 V c i

/-- What point `t` writes back is block `t` of that array: the body stores its product over the whole staging
    buffer, and the three windows' blocks at `t` sit over the same 8192 rows. -/
private theorem flushed1 (c : Dev nD) (t : Fin cfg1.N) :
    (dat1 V c).flushed 2 t = ((cfg1.win 2).blk t).view.read (Elt Ideal) (scaled1 V c) := by
  show (cfg1.win 2).cut (grid1.coords t) ((dat1 V c).after 2 t) = _
  rw [after1_2]
  unfold out1_2
  rw [View.canon_unit_zero zeros2]
  simp only [View.ld_unit_zero (S := S8192x1) zeros2, View.ld_unit_zero (S := S8192x64) zeros2]
  obtain ⟨-, -, -, -, e0, e1⟩ := index1 t
  funext j
  show k1_pay1 (iblk1 V c 0 t) (iblk1 V c 1 t) ((cfg1.win 2).xinj (grid1.coords t) j)
      = scaled1 V c (((cfg1.win 2).blk t).view.emb j)
  have h0 : ((((cfg1.win 2).blk t).view.emb j) 0).val
      = 8192 * t.val + (((cfg1.win 2).xinj (grid1.coords t) j) 0).val := by
    show win1_2.index t 0 * 8192 + 1 * (j 0).val = 8192 * t.val + (j 0).val
    rw [e0]; omega
  have h1 : ((((cfg1.win 2).blk t).view.emb j) 1).val = (((cfg1.win 2).xinj (grid1.coords t) j) 1).val := by
    show win1_2.index t 1 * 64 + 1 * (j 1).val = (j 1).val
    rw [e1]; omega
  refine (payload1_at (iblk1 V c 0 t) (iblk1 V c 1 t) _).trans ?_
  exact congrArg₂ (· * ·)
    (weightBlock1 V c t (ix2 (((cfg1.win 2).xinj (grid1.coords t) j) 0) (0 : Fin 1))
      (ix2 ((((cfg1.win 2).blk t).view.emb j) 0) (0 : Fin 1)) h0 rfl)
    (rowBlock1 V c t ((cfg1.win 2).xinj (grid1.coords t) j) (((cfg1.win 2).blk t).view.emb j) h0 h1)

/-- An entry of the output array lies in point `t`'s block iff each coordinate lies in the block's range on its axis. -/
private theorem memBlock1 (t : Fin cfg1.N) (i : S1703936x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v44).slice (win1_2.rect t)).set ↔ _
  rw [View.set_slice_whole, Rect.mem_set_unit]
  exact Iff.rfl

/-- The 208 blocks of 8192 rows tile the 1703936 rows: row `e` lies in block `e / 8192`, which is written back. -/
private theorem cover1 (i : S1703936x64.Idx) :
    ∃ t : Fin cfg1.N, (cfg1.win 2).flush t = true ∧ i ∈ ((cfg1.win 2).blk t).view.set := by
  have hi0 : (i 0).val < 1703936 := (i 0).isLt
  have hi1 : (i 1).val < 64 := (i 1).isLt
  have hN : cfg1.N = 208 := N_1
  have ht : (i 0).val / 8192 < cfg1.N := by rw [hN]; omega
  obtain ⟨-, -, -, -, e0, e1⟩ := index1 ⟨(i 0).val / 8192, ht⟩
  refine ⟨⟨(i 0).val / 8192, ht⟩, flush1_2 _, ?_⟩
  rw [memBlock1]
  intro a
  match a with
  | ⟨0, _⟩ =>
    show win1_2.index ⟨(i 0).val / 8192, ht⟩ 0 * 8192 ≤ (i 0).val
      ∧ (i 0).val < win1_2.index ⟨(i 0).val / 8192, ht⟩ 0 * 8192 + 8192
    rw [e0]
    show (i 0).val / 8192 * 8192 ≤ (i 0).val ∧ (i 0).val < (i 0).val / 8192 * 8192 + 8192
    omega
  | ⟨1, _⟩ =>
    show win1_2.index ⟨(i 0).val / 8192, ht⟩ 1 * 64 ≤ (i 1).val
      ∧ (i 1).val < win1_2.index ⟨(i 0).val / 8192, ht⟩ 1 * 64 + 64
    rw [e1]
    omega

/-- So after the region the output array is that array: every block written is a block of it, and the blocks cover it. -/
private theorem msgs1_eq (c : Dev nD) : msgs1 V c = scaled1 V c :=
  (dat1 V c).arrAt_eq_of_cover 2 (scaled1 V c) (fun t _ => flushed1 V c t) (cover1)

theorem msgs1_apply (c : Dev nD) (e : Fin 1703936) (q : Fin 64) :
    msgs1 V c (ix2 e q) = weights V c (ix2 e (0 : Fin 1)) * rows1 V c (ix2 e q) :=
  congrFun (msgs1_eq V c) (ix2 e q)

/-! ## Layer 2: region 3, rows of width 32 -/

/-- At point `t` each of the region's three windows is on block `t` of its array: block row `t`, block column `0`. -/
private theorem index2 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The body's arithmetic at row `r`, column `q` of a block: the weight column's entry of row `r`, repeated along
    the row, times the entry `(r, q)` of the block of rows. -/
private theorem payload2 (x0 : Vec Ideal S8192x1 .f32) (x1 : Vec Ideal S8192x32 .f32) (r : Fin 8192) (q : Fin 32) :
    k3_pay1 x0 x1 (ix2 r q) = x0 (ix2 r (0 : Fin 1)) * x1 (ix2 r q) := by
  unfold k3_pay1
  simp only [shapeCast_self]
  rw [mulf_apply]
  refine congrArg (· * x1 (ix2 r q)) ?_
  refine broadcastTo_apply _ _ _ _ fun a => ?_
  match a with
  | ⟨0, _⟩ => rfl
  | ⟨1, _⟩ => rfl

/-- The same at any index of the block. -/
private theorem payload2_at (x0 : Vec Ideal S8192x1 .f32) (x1 : Vec Ideal S8192x32 .f32) (y : S8192x32.Idx) :
    k3_pay1 x0 x1 y = x0 (ix2 (y 0) (0 : Fin 1)) * x1 y := by
  obtain ⟨r, q, rfl⟩ : ∃ (r : Fin 8192) (q : Fin 32), y = ix2 r q := ⟨y 0, y 1, eq_ix2 y⟩
  exact payload2 x0 x1 r q

/-- Entry `y` of the weight block at point `t` is entry `k` of the weight column, `k` being `8192 t` rows further down. -/
private theorem weightBlock2 (c : Dev nD) (t : Fin cfg3.N) (y : S8192x1.Idx) (k : S1703936x1.Idx)
    (h0 : (k 0).val = 8192 * t.val + (y 0).val) (h1 : (k 1).val = (y 1).val) :
    (iblk3 V c 0 t : Vec Ideal S8192x1 .f32) y = weights V c k := by
  obtain ⟨e0, e1, -⟩ := index2 t
  unfold iblk3
  rw [View.read_apply]
  show V c main_v35 _ = V c main_v35 _
  refine congrArg (V c main_v35) (funext fun a => Fin.ext ?_)
  match a with
  | ⟨0, _⟩ => show win3_0.index t 0 * 8192 + 1 * (y 0).val = (k 0).val; rw [e0, h0]; omega
  | ⟨1, _⟩ => show win3_0.index t 1 * 1 + 1 * (y 1).val = (k 1).val; rw [e1, h1]; omega

/-- Entry `y` of the block of rows at point `t` is entry `k` of the gathered array, `k` being `8192 t` rows further down. -/
private theorem rowBlock2 (c : Dev nD) (t : Fin cfg3.N) (y : S8192x32.Idx) (k : S1703936x32.Idx)
    (h0 : (k 0).val = 8192 * t.val + (y 0).val) (h1 : (k 1).val = (y 1).val) :
    (iblk3 V c 1 t : Vec Ideal S8192x32 .f32) y = rows2 V c k := by
  obtain ⟨-, -, e0, e1, -⟩ := index2 t
  unfold iblk3
  rw [View.read_apply]
  show V c main_v56 _ = V c main_v56 _
  refine congrArg (V c main_v56) (funext fun a => Fin.ext ?_)
  match a with
  | ⟨0, _⟩ => show win3_1.index t 0 * 8192 + 1 * (y 0).val = (k 0).val; rw [e0, h0]; omega
  | ⟨1, _⟩ => show win3_1.index t 1 * 32 + 1 * (y 1).val = (k 1).val; rw [e1, h1]; omega

/-- The second layer's messages as one array: every row of the gathered array times its edge's weight. -/
private abbrev scaled2 (c : Dev nD) : FVec Ideal S1703936x32 .f32 :=
  fun i => weights V c (ix2 (i 0) (0 : Fin 1)) * rows2 V c i

/-- What point `t` writes back is block `t` of that array: the body stores its product over the whole staging
    buffer, and the three windows' blocks at `t` sit over the same 8192 rows. -/
private theorem flushed2 (c : Dev nD) (t : Fin cfg3.N) :
    (dat3 V c).flushed 2 t = ((cfg3.win 2).blk t).view.read (Elt Ideal) (scaled2 V c) := by
  show (cfg3.win 2).cut (grid3.coords t) ((dat3 V c).after 2 t) = _
  rw [after3_2]
  unfold out3_2
  rw [View.canon_unit_zero zeros2]
  simp only [View.ld_unit_zero (S := S8192x1) zeros2, View.ld_unit_zero (S := S8192x32) zeros2]
  obtain ⟨-, -, -, -, e0, e1⟩ := index2 t
  funext j
  show k3_pay1 (iblk3 V c 0 t) (iblk3 V c 1 t) ((cfg3.win 2).xinj (grid3.coords t) j)
      = scaled2 V c (((cfg3.win 2).blk t).view.emb j)
  have h0 : ((((cfg3.win 2).blk t).view.emb j) 0).val
      = 8192 * t.val + (((cfg3.win 2).xinj (grid3.coords t) j) 0).val := by
    show win3_2.index t 0 * 8192 + 1 * (j 0).val = 8192 * t.val + (j 0).val
    rw [e0]; omega
  have h1 : ((((cfg3.win 2).blk t).view.emb j) 1).val = (((cfg3.win 2).xinj (grid3.coords t) j) 1).val := by
    show win3_2.index t 1 * 32 + 1 * (j 1).val = (j 1).val
    rw [e1]; omega
  refine (payload2_at (iblk3 V c 0 t) (iblk3 V c 1 t) _).trans ?_
  exact congrArg₂ (· * ·)
    (weightBlock2 V c t (ix2 (((cfg3.win 2).xinj (grid3.coords t) j) 0) (0 : Fin 1))
      (ix2 ((((cfg3.win 2).blk t).view.emb j) 0) (0 : Fin 1)) h0 rfl)
    (rowBlock2 V c t ((cfg3.win 2).xinj (grid3.coords t) j) (((cfg3.win 2).blk t).view.emb j) h0 h1)

/-- An entry of the output array lies in point `t`'s block iff each coordinate lies in the block's range on its axis. -/
private theorem memBlock2 (t : Fin cfg3.N) (i : S1703936x32.Idx) :
    i ∈ ((cfg3.win 2).blk t).view.set ↔ ∀ a : Fin 2, win3_2.index t a * S8192x32.size a ≤ (i a).val
      ∧ (i a).val < win3_2.index t a * S8192x32.size a + S8192x32.size a := by
  show i ∈ ((View.whole main_v57).slice (win3_2.rect t)).set ↔ _
  rw [View.set_slice_whole, Rect.mem_set_unit]
  exact Iff.rfl

/-- The 208 blocks of 8192 rows tile the 1703936 rows: row `e` lies in block `e / 8192`, which is written back. -/
private theorem cover2 (i : S1703936x32.Idx) :
    ∃ t : Fin cfg3.N, (cfg3.win 2).flush t = true ∧ i ∈ ((cfg3.win 2).blk t).view.set := by
  have hi0 : (i 0).val < 1703936 := (i 0).isLt
  have hi1 : (i 1).val < 32 := (i 1).isLt
  have hN : cfg3.N = 208 := N_3
  have ht : (i 0).val / 8192 < cfg3.N := by rw [hN]; omega
  obtain ⟨-, -, -, -, e0, e1⟩ := index2 ⟨(i 0).val / 8192, ht⟩
  refine ⟨⟨(i 0).val / 8192, ht⟩, flush3_2 _, ?_⟩
  rw [memBlock2]
  intro a
  match a with
  | ⟨0, _⟩ =>
    show win3_2.index ⟨(i 0).val / 8192, ht⟩ 0 * 8192 ≤ (i 0).val
      ∧ (i 0).val < win3_2.index ⟨(i 0).val / 8192, ht⟩ 0 * 8192 + 8192
    rw [e0]
    show (i 0).val / 8192 * 8192 ≤ (i 0).val ∧ (i 0).val < (i 0).val / 8192 * 8192 + 8192
    omega
  | ⟨1, _⟩ =>
    show win3_2.index ⟨(i 0).val / 8192, ht⟩ 1 * 32 ≤ (i 1).val
      ∧ (i 1).val < win3_2.index ⟨(i 0).val / 8192, ht⟩ 1 * 32 + 32
    rw [e1]
    omega

/-- So after the region the output array is that array: every block written is a block of it, and the blocks cover it. -/
private theorem msgs2_eq (c : Dev nD) : msgs2 V c = scaled2 V c :=
  (dat3 V c).arrAt_eq_of_cover 2 (scaled2 V c) (fun t _ => flushed2 V c t) (cover2)

theorem msgs2_apply (c : Dev nD) (e : Fin 1703936) (q : Fin 32) :
    msgs2 V c (ix2 e q) = weights V c (ix2 e (0 : Fin 1)) * rows2 V c (ix2 e q) :=
  congrFun (msgs2_eq V c) (ix2 e q)

/-! ## Layer 3: region 5, rows of width 2 -/

/-- At point `t` each of the region's three windows is on block `t` of its array: block row `t`, block column `0`. -/
private theorem index3 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The body's arithmetic at row `r`, column `q` of a block: the weight column's entry of row `r`, repeated along
    the row, times the entry `(r, q)` of the block of rows. -/
private theorem payload3 (x0 : Vec Ideal S8192x1 .f32) (x1 : Vec Ideal S8192x2 .f32) (r : Fin 8192) (q : Fin 2) :
    k5_pay1 x0 x1 (ix2 r q) = x0 (ix2 r (0 : Fin 1)) * x1 (ix2 r q) := by
  unfold k5_pay1
  simp only [shapeCast_self]
  rw [mulf_apply]
  refine congrArg (· * x1 (ix2 r q)) ?_
  refine broadcastTo_apply _ _ _ _ fun a => ?_
  match a with
  | ⟨0, _⟩ => rfl
  | ⟨1, _⟩ => rfl

/-- The same at any index of the block. -/
private theorem payload3_at (x0 : Vec Ideal S8192x1 .f32) (x1 : Vec Ideal S8192x2 .f32) (y : S8192x2.Idx) :
    k5_pay1 x0 x1 y = x0 (ix2 (y 0) (0 : Fin 1)) * x1 y := by
  obtain ⟨r, q, rfl⟩ : ∃ (r : Fin 8192) (q : Fin 2), y = ix2 r q := ⟨y 0, y 1, eq_ix2 y⟩
  exact payload3 x0 x1 r q

/-- Entry `y` of the weight block at point `t` is entry `k` of the weight column, `k` being `8192 t` rows further down. -/
private theorem weightBlock3 (c : Dev nD) (t : Fin cfg5.N) (y : S8192x1.Idx) (k : S1703936x1.Idx)
    (h0 : (k 0).val = 8192 * t.val + (y 0).val) (h1 : (k 1).val = (y 1).val) :
    (iblk5 V c 0 t : Vec Ideal S8192x1 .f32) y = weights V c k := by
  obtain ⟨e0, e1, -⟩ := index3 t
  unfold iblk5
  rw [View.read_apply]
  show V c main_v35 _ = V c main_v35 _
  refine congrArg (V c main_v35) (funext fun a => Fin.ext ?_)
  match a with
  | ⟨0, _⟩ => show win5_0.index t 0 * 8192 + 1 * (y 0).val = (k 0).val; rw [e0, h0]; omega
  | ⟨1, _⟩ => show win5_0.index t 1 * 1 + 1 * (y 1).val = (k 1).val; rw [e1, h1]; omega

/-- Entry `y` of the block of rows at point `t` is entry `k` of the gathered array, `k` being `8192 t` rows further down. -/
private theorem rowBlock3 (c : Dev nD) (t : Fin cfg5.N) (y : S8192x2.Idx) (k : S1703936x2.Idx)
    (h0 : (k 0).val = 8192 * t.val + (y 0).val) (h1 : (k 1).val = (y 1).val) :
    (iblk5 V c 1 t : Vec Ideal S8192x2 .f32) y = rows3 V c k := by
  obtain ⟨-, -, e0, e1, -⟩ := index3 t
  unfold iblk5
  rw [View.read_apply]
  show V c main_v69 _ = V c main_v69 _
  refine congrArg (V c main_v69) (funext fun a => Fin.ext ?_)
  match a with
  | ⟨0, _⟩ => show win5_1.index t 0 * 8192 + 1 * (y 0).val = (k 0).val; rw [e0, h0]; omega
  | ⟨1, _⟩ => show win5_1.index t 1 * 2 + 1 * (y 1).val = (k 1).val; rw [e1, h1]; omega

/-- The third layer's messages as one array: every row of the gathered array times its edge's weight. -/
private abbrev scaled3 (c : Dev nD) : FVec Ideal S1703936x2 .f32 :=
  fun i => weights V c (ix2 (i 0) (0 : Fin 1)) * rows3 V c i

/-- What point `t` writes back is block `t` of that array: the body stores its product over the whole staging
    buffer, and the three windows' blocks at `t` sit over the same 8192 rows. -/
private theorem flushed3 (c : Dev nD) (t : Fin cfg5.N) :
    (dat5 V c).flushed 2 t = ((cfg5.win 2).blk t).view.read (Elt Ideal) (scaled3 V c) := by
  show (cfg5.win 2).cut (grid5.coords t) ((dat5 V c).after 2 t) = _
  rw [after5_2]
  unfold out5_2
  rw [View.canon_unit_zero zeros2]
  simp only [View.ld_unit_zero (S := S8192x1) zeros2, View.ld_unit_zero (S := S8192x2) zeros2]
  obtain ⟨-, -, -, -, e0, e1⟩ := index3 t
  funext j
  show k5_pay1 (iblk5 V c 0 t) (iblk5 V c 1 t) ((cfg5.win 2).xinj (grid5.coords t) j)
      = scaled3 V c (((cfg5.win 2).blk t).view.emb j)
  have h0 : ((((cfg5.win 2).blk t).view.emb j) 0).val
      = 8192 * t.val + (((cfg5.win 2).xinj (grid5.coords t) j) 0).val := by
    show win5_2.index t 0 * 8192 + 1 * (j 0).val = 8192 * t.val + (j 0).val
    rw [e0]; omega
  have h1 : ((((cfg5.win 2).blk t).view.emb j) 1).val = (((cfg5.win 2).xinj (grid5.coords t) j) 1).val := by
    show win5_2.index t 1 * 2 + 1 * (j 1).val = (j 1).val
    rw [e1]; omega
  refine (payload3_at (iblk5 V c 0 t) (iblk5 V c 1 t) _).trans ?_
  exact congrArg₂ (· * ·)
    (weightBlock3 V c t (ix2 (((cfg5.win 2).xinj (grid5.coords t) j) 0) (0 : Fin 1))
      (ix2 ((((cfg5.win 2).blk t).view.emb j) 0) (0 : Fin 1)) h0 rfl)
    (rowBlock3 V c t ((cfg5.win 2).xinj (grid5.coords t) j) (((cfg5.win 2).blk t).view.emb j) h0 h1)

/-- An entry of the output array lies in point `t`'s block iff each coordinate lies in the block's range on its axis. -/
private theorem memBlock3 (t : Fin cfg5.N) (i : S1703936x2.Idx) :
    i ∈ ((cfg5.win 2).blk t).view.set ↔ ∀ a : Fin 2, win5_2.index t a * S8192x2.size a ≤ (i a).val
      ∧ (i a).val < win5_2.index t a * S8192x2.size a + S8192x2.size a := by
  show i ∈ ((View.whole main_v70).slice (win5_2.rect t)).set ↔ _
  rw [View.set_slice_whole, Rect.mem_set_unit]
  exact Iff.rfl

/-- The 208 blocks of 8192 rows tile the 1703936 rows: row `e` lies in block `e / 8192`, which is written back. -/
private theorem cover3 (i : S1703936x2.Idx) :
    ∃ t : Fin cfg5.N, (cfg5.win 2).flush t = true ∧ i ∈ ((cfg5.win 2).blk t).view.set := by
  have hi0 : (i 0).val < 1703936 := (i 0).isLt
  have hi1 : (i 1).val < 2 := (i 1).isLt
  have hN : cfg5.N = 208 := N_5
  have ht : (i 0).val / 8192 < cfg5.N := by rw [hN]; omega
  obtain ⟨-, -, -, -, e0, e1⟩ := index3 ⟨(i 0).val / 8192, ht⟩
  refine ⟨⟨(i 0).val / 8192, ht⟩, flush5_2 _, ?_⟩
  rw [memBlock3]
  intro a
  match a with
  | ⟨0, _⟩ =>
    show win5_2.index ⟨(i 0).val / 8192, ht⟩ 0 * 8192 ≤ (i 0).val
      ∧ (i 0).val < win5_2.index ⟨(i 0).val / 8192, ht⟩ 0 * 8192 + 8192
    rw [e0]
    show (i 0).val / 8192 * 8192 ≤ (i 0).val ∧ (i 0).val < (i 0).val / 8192 * 8192 + 8192
    omega
  | ⟨1, _⟩ =>
    show win5_2.index ⟨(i 0).val / 8192, ht⟩ 1 * 2 ≤ (i 1).val
      ∧ (i 1).val < win5_2.index ⟨(i 0).val / 8192, ht⟩ 1 * 2 + 2
    rw [e1]
    omega

/-- So after the region the output array is that array: every block written is a block of it, and the blocks cover it. -/
private theorem msgs3_eq (c : Dev nD) : msgs3 V c = scaled3 V c :=
  (dat5 V c).arrAt_eq_of_cover 2 (scaled3 V c) (fun t _ => flushed3 V c t) (cover3)

theorem msgs3_apply (c : Dev nD) (e : Fin 1703936) (q : Fin 2) :
    msgs3 V c (ix2 e q) = weights V c (ix2 e (0 : Fin 1)) * rows3 V c (ix2 e q) :=
  congrFun (msgs3_eq V c) (ix2 e q)

end Cert.KernelIdeal.ScaleRegions

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.MatmulRegions.lean ====
/-
  The three matrix-product regions, read as whole arrays.

  Region 0 multiplies the node features `[100000, 64]` by the first weight matrix, 5000 rows to a block; regions 2
  and 4 first add the bias row to the aggregated features, clamp at zero from below, and then multiply by the next
  weight matrix. A change of float format is the identity over the extended reals, so after each region every entry
  `(p, q)` of its output is the textbook sum over the contracted axis of the products of the entries the region
  found on entry: the 20 blocks tile the rows, and each block's product reads only its own rows.
-/
import proofs.«130575_j19585050869931_1_alg».proof.Proof.Gen.KernelIdeal.Frame
import proofs.«130575_j19585050869931_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.MatmulRegions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Layer 1: node features, first weight matrix, and the product after region 0. -/
abbrev feats (c : Dev nD) : FVec Ideal S100000x64 .f32 := V c main_arg0
abbrev wmat1 (c : Dev nD) : FVec Ideal S64x64 .f32 := V c main_arg2
abbrev prod1 (c : Dev nD) : FVec Ideal S100000x64 .f32 := (dat0 V c).arrAt 2 cfg0.N
/-- Layer 2: aggregated features, bias row, weight matrix, and the product after region 2. -/
abbrev aggr1 (c : Dev nD) : FVec Ideal S100000x64 .f32 := V c main_v47
abbrev bias1 (c : Dev nD) : FVec Ideal S1x64 .f32 := V c main_v48
abbrev wmat2 (c : Dev nD) : FVec Ideal S64x32 .f32 := V c main_arg4
abbrev prod2 (c : Dev nD) : FVec Ideal S100000x32 .f32 := (dat2 V c).arrAt 3 cfg2.N
/-- Layer 3. -/
abbrev aggr2 (c : Dev nD) : FVec Ideal S100000x32 .f32 := V c main_v60
abbrev bias2 (c : Dev nD) : FVec Ideal S1x32 .f32 := V c main_v61
abbrev wmat3 (c : Dev nD) : FVec Ideal S32x2 .f32 := V c main_arg6
abbrev prod3 (c : Dev nD) : FVec Ideal S100000x2 .f32 := (dat4 V c).arrAt 3 cfg4.N

theorem arrRefs :
    Pipeline.arrRef spec0 0 = main_arg0 ∧ Pipeline.arrRef spec0 1 = main_arg2 ∧ Pipeline.arrRef spec0 2 = main_v36
    ∧ Pipeline.arrRef spec2 0 = main_v47 ∧ Pipeline.arrRef spec2 1 = main_v48 ∧ Pipeline.arrRef spec2 2 = main_arg4 ∧ Pipeline.arrRef spec2 3 = main_v49
    ∧ Pipeline.arrRef spec4 0 = main_v60 ∧ Pipeline.arrRef spec4 1 = main_v61 ∧ Pipeline.arrRef spec4 2 = main_arg6 ∧ Pipeline.arrRef spec4 3 = main_v62 :=
  ⟨rfl, rfl, rfl, rfl, rfl, rfl, rfl, rfl, rfl, rfl, rfl⟩

/-! ## Region 0: features times the first weight matrix -/

/-- The offsets of a whole-block access are zero on both axes. -/
private theorem zeroOffsets : (![0, 0] : Fin 2 → Nat) = fun _ => 0 := funext fun a => by fin_cases a <;> rfl

/-- The first region's payload at an entry. -/
private theorem pay1_entry (x0 : Vec Ideal S5000x64 .f32) (x1 : Vec Ideal S64x64 .f32) (r : Fin 5000) (q : Fin 64) :
    k0_pay1 x0 x1 (ix2 r q) = ∑ k : Fin 64, x0 (ix2 r k) * x1 (ix2 k q) := by
  unfold k0_pay1
  exact Cert.Lib.PlainDot.matmul_zero_apply (M := 5000) (K := 64) (N := 64) none
    (truncf .bf16 x0 bitsLt_bf16_f32) (truncf .bf16 x1 bitsLt_bf16_f32) r q

/-- The block indices of the three windows at point `t`: the row blocks move with `t`, the weight matrix has one block. -/
private theorem blockIndex1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t … 5000 t + 4999` of the features. -/
private theorem featsBlock (c : Dev nD) (t : Fin cfg0.N) (r : Fin 5000) (k : Fin 64) (i : S100000x64.Idx)
    (hi0 : (i 0).val = 5000 * t.val + r.val) (hi1 : (i 1).val = k.val) :
    (iblk0 V c 0 t : Vec Ideal S5000x64 .f32) (ix2 r k) = feats V c i := by
  obtain ⟨e0, e1, -⟩ := blockIndex1 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = (i 0).val; rw [e0, hi0]; omega
  | ⟨1, _⟩ => show win0_0.index t (1 : Fin 2) * 64 + 1 * k.val = (i 1).val; rw [e1, hi1]; omega

/-- The right operand's one block is the whole weight matrix. -/
private theorem wmat1Block (c : Dev nD) (t : Fin cfg0.N) (k : Fin 64) (q : Fin 64) :
    (iblk0 V c 1 t : Vec Ideal S64x64 .f32) (ix2 k q) = wmat1 V c (ix2 k q) := by
  obtain ⟨-, -, e0, e1, -⟩ := blockIndex1 t
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The whole product, entry by entry. -/
private abbrev wholeProd1 (c : Dev nD) : FVec Ideal S100000x64 .f32 :=
  fun i => ∑ k : Fin 64, feats V c (ix2 (i 0) k) * wmat1 V c (ix2 k (i 1))

/-- Block `t` of the payload, entry by entry, is block `t` of the whole product. -/
private theorem blockProd1 (c : Dev nD) (t : Fin cfg0.N) (j : S5000x64.Idx) (i : S100000x64.Idx)
    (hi0 : (i 0).val = 5000 * t.val + (j 0).val) (hi1 : (i 1).val = (j 1).val) :
    k0_pay1 (iblk0 V c 0 t) (iblk0 V c 1 t) j = wholeProd1 V c i := by
  obtain ⟨r, q, rfl⟩ : ∃ (r : Fin 5000) (q : Fin 64), j = ix2 r q := ⟨j 0, j 1, eq_ix2 j⟩
  have hq : (i 1 : Fin 64) = q := Fin.ext hi1
  refine (pay1_entry (iblk0 V c 0 t) (iblk0 V c 1 t) r q).trans ?_
  refine Finset.sum_congr rfl fun k _ => ?_
  rw [featsBlock V c t r k (ix2 (i 0) k) hi0 rfl, wmat1Block V c t k q, hq]

/-- What point `t` writes back is block `t` of the whole product. -/
private theorem flushed1 (c : Dev nD) (t : Fin cfg0.N) :
    (dat0 V c).flushed 2 t = ((cfg0.win 2).blk t).view.read (Elt Ideal) (wholeProd1 V c) := by
  show (cfg0.win 2).cut (grid0.coords t) ((dat0 V c).after 2 t) = _
  rw [after0_2]
  unfold out0_2
  rw [View.canon_unit_zero zeroOffsets]
  simp only [View.ld_unit_zero (S := S5000x64) zeroOffsets, View.ld_unit_zero (S := S64x64) zeroOffsets]
  obtain ⟨-, -, -, -, e0, e1⟩ := blockIndex1 t
  funext j
  rw [View.read_apply]
  refine blockProd1 V c t _ _ ?_ ?_
  · show win0_2.index t (0 : Fin 2) * 5000 + 1 * (j 0).val = 5000 * t.val + (j 0).val
    rw [e0]; omega
  · show win0_2.index t (1 : Fin 2) * 64 + 1 * (j 1).val = (j 1).val
    rw [e1]; omega

/-- An entry of the array lies in point `t`'s block when each coordinate lies in the block's range on its axis. -/
private theorem inBlock1 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v36).slice (win0_2.rect t)).set ↔ _
  rw [View.set_slice_whole, Rect.mem_set_unit]
  exact Iff.rfl

/-- Row `p` lies in block `p / 5000`: the 20 blocks tile the rows. -/
private theorem rowsTiled1 (i : S100000x64.Idx) :
    ∃ t : Fin cfg0.N, (cfg0.win 2).flush t = true ∧ i ∈ ((cfg0.win 2).blk t).view.set := by
  have hN : cfg0.N = 20 := N_0
  have h0 : (i 0).val < 100000 := (i 0).isLt
  have h1 : (i 1).val < 64 := (i 1).isLt
  let t : Fin cfg0.N := ⟨(i 0).val / 5000, by rw [hN]; omega⟩
  have ht : t.val = (i 0).val / 5000 := rfl
  obtain ⟨-, -, -, -, e0, e1⟩ := blockIndex1 t
  refine ⟨t, flush0_2 t, ?_⟩
  rw [inBlock1]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 64 ≤ (i 1).val ∧ (i 1).val < win0_2.index t (1 : Fin 2) * 64 + 64
    rw [e1]; omega

/-- After the region the output array holds the whole product. -/
private theorem prod1_whole (c : Dev nD) : prod1 V c = wholeProd1 V c :=
  (dat0 V c).arrAt_eq_of_cover 2 (wholeProd1 V c) (fun t _ => flushed1 V c t) rowsTiled1

theorem prod1_apply (c : Dev nD) (p : Fin 100000) (q : Fin 64) :
    prod1 V c (ix2 p q) = ∑ k : Fin 64, feats V c (ix2 p k) * wmat1 V c (ix2 k q) :=
  congrFun (prod1_whole V c) (ix2 p q)

/-! ## Region 2: bias, clamp at zero, times the second weight matrix -/

/-- The second region's payload at an entry: the bias row added to row `r`, clamped at zero from below, times the
    weight column. -/
private theorem pay2_entry (x0 : Vec Ideal S5000x64 .f32) (x1 : Vec Ideal S1x64 .f32) (x2 : Vec Ideal S64x32 .f32)
    (r : Fin 5000) (q : Fin 32) :
    k2_pay1 x0 x1 x2 (ix2 r q)
      = ∑ k : Fin 64, max (x0 (ix2 r k) + x1 (ix2 (0 : Fin 1) k)) 0 * x2 (ix2 k q) := by
  unfold k2_pay1
  refine (Cert.Lib.PlainDot.matmul_zero_apply (M := 5000) (K := 64) (N := 32) none _ _ r q).trans ?_
  refine Finset.sum_congr rfl fun k _ => ?_
  rw [truncf_apply, truncf_apply, maximumf_apply, addf_apply, broadcast_apply, shapeCast_self, shapeCast_self,
    broadcastTo_1b_ab_apply]
  show max _ (Ideal.ofBits .f32 0x00000000#32) * _ = _
  rw [Ideal.ofBits_zero_f32]

/-- The block indices of the four windows at point `t`: the row blocks move with `t`, the bias row and the weight matrix have one block each. -/
private theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `5000 t … 5000 t + 4999` of the aggregated features. -/
private theorem aggr1Block (c : Dev nD) (t : Fin cfg2.N) (r : Fin 5000) (k : Fin 64) (i : S100000x64.Idx)
    (hi0 : (i 0).val = 5000 * t.val + r.val) (hi1 : (i 1).val = k.val) :
    (iblk2 V c 0 t : Vec Ideal S5000x64 .f32) (ix2 r k) = aggr1 V c i := by
  obtain ⟨e0, e1, -⟩ := blockIndex2 t
  unfold iblk2
  rw [View.read_apply]
  show V c main_v47 _ = V c main_v47 _
  refine congrArg (V c main_v47) (funext fun a => Fin.ext ?_)
  match a with
  | ⟨0, _⟩ => show win2_0.index t (0 : Fin 2) * 5000 + 1 * r.val = (i 0).val; rw [e0, hi0]; omega
  | ⟨1, _⟩ => show win2_0.index t (1 : Fin 2) * 64 + 1 * k.val = (i 1).val; rw [e1, hi1]; omega

/-- The bias row's one block is the whole row. -/
private theorem bias1Block (c : Dev nD) (t : Fin cfg2.N) (z : Fin 1) (k : Fin 64) :
    (iblk2 V c 1 t : Vec Ideal S1x64 .f32) (ix2 z k) = bias1 V c (ix2 z k) := by
  obtain ⟨-, -, e0, e1, -⟩ := blockIndex2 t
  unfold iblk2
  rw [View.read_apply]
  show V c main_v48 _ = V c main_v48 _
  refine congrArg (V c main_v48) (funext fun a => Fin.ext ?_)
  match a with
  | ⟨0, _⟩ => show win2_1.index t (0 : Fin 2) * 1 + 1 * z.val = z.val; rw [e0]; omega
  | ⟨1, _⟩ => show win2_1.index t (1 : Fin 2) * 64 + 1 * k.val = k.val; rw [e1]; omega

/-- The right operand's one block is the whole weight matrix. -/
private theorem wmat2Block (c : Dev nD) (t : Fin cfg2.N) (k : Fin 64) (q : Fin 32) :
    (iblk2 V c 2 t : Vec Ideal S64x32 .f32) (ix2 k q) = wmat2 V c (ix2 k q) := by
  obtain ⟨-, -, -, -, e0, e1, -⟩ := blockIndex2 t
  unfold iblk2
  rw [View.read_apply]
  show V c main_arg4 _ = V c main_arg4 _
  refine congrArg (V c main_arg4) (funext fun a => Fin.ext ?_)
  match a with
  | ⟨0, _⟩ => show win2_2.index t (0 : Fin 2) * 64 + 1 * k.val = k.val; rw [e0]; omega
  | ⟨1, _⟩ => show win2_2.index t (1 : Fin 2) * 32 + 1 * q.val = q.val; rw [e1]; omega

/-- The whole product of the second layer, entry by entry. -/
private abbrev wholeProd2 (c : Dev nD) : FVec Ideal S100000x32 .f32 :=
  fun i => ∑ k : Fin 64, max (aggr1 V c (ix2 (i 0) k) + bias1 V c (ix2 (0 : Fin 1) k)) 0 * wmat2 V c (ix2 k (i 1))

/-- Block `t` of the payload, entry by entry, is block `t` of the whole product. -/
private theorem blockProd2 (c : Dev nD) (t : Fin cfg2.N) (j : S5000x32.Idx) (i : S100000x32.Idx)
    (hi0 : (i 0).val = 5000 * t.val + (j 0).val) (hi1 : (i 1).val = (j 1).val) :
    k2_pay1 (iblk2 V c 0 t) (iblk2 V c 1 t) (iblk2 V c 2 t) j = wholeProd2 V c i := by
  obtain ⟨r, q, rfl⟩ : ∃ (r : Fin 5000) (q : Fin 32), j = ix2 r q := ⟨j 0, j 1, eq_ix2 j⟩
  have hq : (i 1 : Fin 32) = q := Fin.ext hi1
  refine (pay2_entry (iblk2 V c 0 t) (iblk2 V c 1 t) (iblk2 V c 2 t) r q).trans ?_
  refine Finset.sum_congr rfl fun k _ => ?_
  rw [aggr1Block V c t r k (ix2 (i 0) k) hi0 rfl, bias1Block V c t 0 k, wmat2Block V c t k q, hq]

/-- What point `t` writes back is block `t` of the whole product. -/
private theorem flushed2 (c : Dev nD) (t : Fin cfg2.N) :
    (dat2 V c).flushed 3 t = ((cfg2.win 3).blk t).view.read (Elt Ideal) (wholeProd2 V c) := by
  show (cfg2.win 3).cut (grid2.coords t) ((dat2 V c).after 3 t) = _
  rw [after2_3]
  unfold out2_3
  rw [View.canon_unit_zero zeroOffsets]
  simp only [View.ld_unit_zero (S := S5000x64) zeroOffsets, View.ld_unit_zero (S := S1x64) zeroOffsets,
    View.ld_unit_zero (S := S64x32) zeroOffsets]
  obtain ⟨-, -, -, -, -, -, e0, e1⟩ := blockIndex2 t
  funext j
  rw [View.read_apply]
  refine blockProd2 V c t _ _ ?_ ?_
  · show win2_3.index t (0 : Fin 2) * 5000 + 1 * (j 0).val = 5000 * t.val + (j 0).val
    rw [e0]; omega
  · show win2_3.index t (1 : Fin 2) * 32 + 1 * (j 1).val = (j 1).val
    rw [e1]; omega

/-- An entry of the array lies in point `t`'s block when each coordinate lies in the block's range on its axis. -/
private theorem inBlock2 (t : Fin cfg2.N) (i : S100000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v49).slice (win2_3.rect t)).set ↔ _
  rw [View.set_slice_whole, Rect.mem_set_unit]
  exact Iff.rfl

/-- Row `p` lies in block `p / 5000`: the 20 blocks tile the rows. -/
private theorem rowsTiled2 (i : S100000x32.Idx) :
    ∃ t : Fin cfg2.N, (cfg2.win 3).flush t = true ∧ i ∈ ((cfg2.win 3).blk t).view.set := by
  have hN : cfg2.N = 20 := N_2
  have h0 : (i 0).val < 100000 := (i 0).isLt
  have h1 : (i 1).val < 32 := (i 1).isLt
  let t : Fin cfg2.N := ⟨(i 0).val / 5000, by rw [hN]; omega⟩
  have ht : t.val = (i 0).val / 5000 := rfl
  obtain ⟨-, -, -, -, -, -, e0, e1⟩ := blockIndex2 t
  refine ⟨t, flush2_3 t, ?_⟩
  rw [inBlock2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 32 ≤ (i 1).val ∧ (i 1).val < win2_3.index t (1 : Fin 2) * 32 + 32
    rw [e1]; omega

/-- After the region the output array holds the whole product. -/
private theorem prod2_whole (c : Dev nD) : prod2 V c = wholeProd2 V c :=
  (dat2 V c).arrAt_eq_of_cover 3 (wholeProd2 V c) (fun t _ => flushed2 V c t) rowsTiled2

theorem prod2_apply (c : Dev nD) (p : Fin 100000) (q : Fin 32) :
    prod2 V c (ix2 p q)
      = ∑ k : Fin 64, max (aggr1 V c (ix2 p k) + bias1 V c (ix2 (0 : Fin 1) k)) 0 * wmat2 V c (ix2 k q) :=
  congrFun (prod2_whole V c) (ix2 p q)

/-! ## Region 4: bias, clamp at zero, times the third weight matrix -/

/-- The third region's payload at an entry: the bias row added to row `r`, clamped at zero from below, times the
    weight column. -/
private theorem pay3_entry (x0 : Vec Ideal S5000x32 .f32) (x1 : Vec Ideal S1x32 .f32) (x2 : Vec Ideal S32x2 .f32)
    (r : Fin 5000) (q : Fin 2) :
    k4_pay1 x0 x1 x2 (ix2 r q)
      = ∑ k : Fin 32, max (x0 (ix2 r k) + x1 (ix2 (0 : Fin 1) k)) 0 * x2 (ix2 k q) := by
  unfold k4_pay1
  refine (Cert.Lib.PlainDot.matmul_zero_apply (M := 5000) (K := 32) (N := 2) none _ _ r q).trans ?_
  refine Finset.sum_congr rfl fun k _ => ?_
  rw [truncf_apply, truncf_apply, maximumf_apply, addf_apply, broadcast_apply, shapeCast_self, shapeCast_self,
    broadcastTo_1b_ab_apply]
  show max _ (Ideal.ofBits .f32 0x00000000#32) * _ = _
  rw [Ideal.ofBits_zero_f32]

/-- The block indices of the four windows at point `t`: the row blocks move with `t`, the bias row and the weight matrix have one block each. -/
private theorem blockIndex3 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The left operand's block at point `t` is rows `5000 t … 5000 t + 4999` of the aggregated features. -/
private theorem aggr2Block (c : Dev nD) (t : Fin cfg4.N) (r : Fin 5000) (k : Fin 32) (i : S100000x32.Idx)
    (hi0 : (i 0).val = 5000 * t.val + r.val) (hi1 : (i 1).val = k.val) :
    (iblk4 V c 0 t : Vec Ideal S5000x32 .f32) (ix2 r k) = aggr2 V c i := by
  obtain ⟨e0, e1, -⟩ := blockIndex3 t
  unfold iblk4
  rw [View.read_apply]
  show V c main_v60 _ = V c main_v60 _
  refine congrArg (V c main_v60) (funext fun a => Fin.ext ?_)
  match a with
  | ⟨0, _⟩ => show win4_0.index t (0 : Fin 2) * 5000 + 1 * r.val = (i 0).val; rw [e0, hi0]; omega
  | ⟨1, _⟩ => show win4_0.index t (1 : Fin 2) * 32 + 1 * k.val = (i 1).val; rw [e1, hi1]; omega

/-- The bias row's one block is the whole row. -/
private theorem bias2Block (c : Dev nD) (t : Fin cfg4.N) (z : Fin 1) (k : Fin 32) :
    (iblk4 V c 1 t : Vec Ideal S1x32 .f32) (ix2 z k) = bias2 V c (ix2 z k) := by
  obtain ⟨-, -, e0, e1, -⟩ := blockIndex3 t
  unfold iblk4
  rw [View.read_apply]
  show V c main_v61 _ = V c main_v61 _
  refine congrArg (V c main_v61) (funext fun a => Fin.ext ?_)
  match a with
  | ⟨0, _⟩ => show win4_1.index t (0 : Fin 2) * 1 + 1 * z.val = z.val; rw [e0]; omega
  | ⟨1, _⟩ => show win4_1.index t (1 : Fin 2) * 32 + 1 * k.val = k.val; rw [e1]; omega

/-- The right operand's one block is the whole weight matrix. -/
private theorem wmat3Block (c : Dev nD) (t : Fin cfg4.N) (k : Fin 32) (q : Fin 2) :
    (iblk4 V c 2 t : Vec Ideal S32x2 .f32) (ix2 k q) = wmat3 V c (ix2 k q) := by
  obtain ⟨-, -, -, -, e0, e1, -⟩ := blockIndex3 t
  unfold iblk4
  rw [View.read_apply]
  show V c main_arg6 _ = V c main_arg6 _
  refine congrArg (V c main_arg6) (funext fun a => Fin.ext ?_)
  match a with
  | ⟨0, _⟩ => show win4_2.index t (0 : Fin 2) * 32 + 1 * k.val = k.val; rw [e0]; omega
  | ⟨1, _⟩ => show win4_2.index t (1 : Fin 2) * 2 + 1 * q.val = q.val; rw [e1]; omega

/-- The whole product of the third layer, entry by entry. -/
private abbrev wholeProd3 (c : Dev nD) : FVec Ideal S100000x2 .f32 :=
  fun i => ∑ k : Fin 32, max (aggr2 V c (ix2 (i 0) k) + bias2 V c (ix2 (0 : Fin 1) k)) 0 * wmat3 V c (ix2 k (i 1))

/-- Block `t` of the payload, entry by entry, is block `t` of the whole product. -/
private theorem blockProd3 (c : Dev nD) (t : Fin cfg4.N) (j : S5000x2.Idx) (i : S100000x2.Idx)
    (hi0 : (i 0).val = 5000 * t.val + (j 0).val) (hi1 : (i 1).val = (j 1).val) :
    k4_pay1 (iblk4 V c 0 t) (iblk4 V c 1 t) (iblk4 V c 2 t) j = wholeProd3 V c i := by
  obtain ⟨r, q, rfl⟩ : ∃ (r : Fin 5000) (q : Fin 2), j = ix2 r q := ⟨j 0, j 1, eq_ix2 j⟩
  have hq : (i 1 : Fin 2) = q := Fin.ext hi1
  refine (pay3_entry (iblk4 V c 0 t) (iblk4 V c 1 t) (iblk4 V c 2 t) r q).trans ?_
  refine Finset.sum_congr rfl fun k _ => ?_
  rw [aggr2Block V c t r k (ix2 (i 0) k) hi0 rfl, bias2Block V c t 0 k, wmat3Block V c t k q, hq]

/-- What point `t` writes back is block `t` of the whole product. -/
private theorem flushed3 (c : Dev nD) (t : Fin cfg4.N) :
    (dat4 V c).flushed 3 t = ((cfg4.win 3).blk t).view.read (Elt Ideal) (wholeProd3 V c) := by
  show (cfg4.win 3).cut (grid4.coords t) ((dat4 V c).after 3 t) = _
  rw [after4_3]
  unfold out4_3
  rw [View.canon_unit_zero zeroOffsets]
  simp only [View.ld_unit_zero (S := S5000x32) zeroOffsets, View.ld_unit_zero (S := S1x32) zeroOffsets,
    View.ld_unit_zero (S := S32x2) zeroOffsets]
  obtain ⟨-, -, -, -, -, -, e0, e1⟩ := blockIndex3 t
  funext j
  rw [View.read_apply]
  refine blockProd3 V c t _ _ ?_ ?_
  · show win4_3.index t (0 : Fin 2) * 5000 + 1 * (j 0).val = 5000 * t.val + (j 0).val
    rw [e0]; omega
  · show win4_3.index t (1 : Fin 2) * 2 + 1 * (j 1).val = (j 1).val
    rw [e1]; omega

/-- An entry of the array lies in point `t`'s block when each coordinate lies in the block's range on its axis. -/
private theorem inBlock3 (t : Fin cfg4.N) (i : S100000x2.Idx) :
    i ∈ ((cfg4.win 3).blk t).view.set ↔ ∀ a : Fin 2, win4_3.index t a * S5000x2.size a ≤ (i a).val
      ∧ (i a).val < win4_3.index t a * S5000x2.size a + S5000x2.size a := by
  show i ∈ ((View.whole main_v62).slice (win4_3.rect t)).set ↔ _
  rw [View.set_slice_whole, Rect.mem_set_unit]
  exact Iff.rfl

/-- Row `p` lies in block `p / 5000`: the 20 blocks tile the rows. -/
private theorem rowsTiled3 (i : S100000x2.Idx) :
    ∃ t : Fin cfg4.N, (cfg4.win 3).flush t = true ∧ i ∈ ((cfg4.win 3).blk t).view.set := by
  have hN : cfg4.N = 20 := N_4
  have h0 : (i 0).val < 100000 := (i 0).isLt
  have h1 : (i 1).val < 2 := (i 1).isLt
  let t : Fin cfg4.N := ⟨(i 0).val / 5000, by rw [hN]; omega⟩
  have ht : t.val = (i 0).val / 5000 := rfl
  obtain ⟨-, -, -, -, -, -, e0, e1⟩ := blockIndex3 t
  refine ⟨t, flush4_3 t, ?_⟩
  rw [inBlock3]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 2 ≤ (i 1).val ∧ (i 1).val < win4_3.index t (1 : Fin 2) * 2 + 2
    rw [e1]; omega

/-- After the region the output array holds the whole product. -/
private theorem prod3_whole (c : Dev nD) : prod3 V c = wholeProd3 V c :=
  (dat4 V c).arrAt_eq_of_cover 3 (wholeProd3 V c) (fun t _ => flushed3 V c t) rowsTiled3

theorem prod3_apply (c : Dev nD) (p : Fin 100000) (q : Fin 2) :
    prod3 V c (ix2 p q)
      = ∑ k : Fin 32, max (aggr2 V c (ix2 p k) + bias2 V c (ix2 (0 : Fin 1) k)) 0 * wmat3 V c (ix2 k q) :=
  congrFun (prod3_whole V c) (ix2 p q)

end Cert.KernelIdeal.MatmulRegions

end
-- ==== Proof.Layers.lean ====
/-
  The kernel program's values, layer by layer.

  Read through the fold of @main's segments, the program computes: the product `hid1` of the node features with
  the first weight matrix (region 0); then three times the same step — gather row `src[e]` of the current
  product for every (extended) edge `e`, scale it by the edge's weight in a region, add it into row `dst[e]` —
  giving `agg1`, `agg2` and the last aggregate; between the steps a region adds the bias, clamps at zero and
  multiplies by the next weight matrix (`hid2`, `hid3`); and at the end the last bias is added. `aggPad64`,
  `aggPad32`, `aggPad2` name one aggregation over the extended edge list as a function of the array gathered from.
-/
import proofs.«130575_j19585050869931_1_alg».proof.Proof.Gen.KernelIdeal.Frame
import proofs.«130575_j19585050869931_1_alg».proof.Proof.KernelValues
import proofs.«130575_j19585050869931_1_alg».proof.Proof.Carried
import proofs.«130575_j19585050869931_1_alg».proof.Proof.ScaleRegions
import proofs.«130575_j19585050869931_1_alg».proof.Proof.MatmulRegions
import Idealize.ShloMosaic.Lib.ValueIdx
import Idealize.ShloMosaic.Lib.Pipeline.Value
import Idealize.ShloMosaic.Lib.StableHlo.Run

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen Cert.KernelIdeal.Values

variable (m : (ℓ : Loc nD τ sig) → Buf (Elt Ideal) ℓ) (ρ : Dev nD → PrngReg)

/-! ## The arguments, by their literal types -/

abbrev feats (c : Dev nD) : FVec Ideal S100000x64 .f32 := m ((c : Thread nD τ).loc main_arg0)
abbrev edges (c : Dev nD) : (⟨S2x1600000, .i32⟩ : BufTy).Contents (Elt Ideal) := m ((c : Thread nD τ).loc main_arg1)
abbrev wmat1 (c : Dev nD) : FVec Ideal S64x64 .f32 := m ((c : Thread nD τ).loc main_arg2)
abbrev bias1 (c : Dev nD) : FVec Ideal S64 .f32 := m ((c : Thread nD τ).loc main_arg3)
abbrev wmat2 (c : Dev nD) : FVec Ideal S64x32 .f32 := m ((c : Thread nD τ).loc main_arg4)
abbrev bias2 (c : Dev nD) : FVec Ideal S32 .f32 := m ((c : Thread nD τ).loc main_arg5)
abbrev wmat3 (c : Dev nD) : FVec Ideal S32x2 .f32 := m ((c : Thread nD τ).loc main_arg6)
abbrev bias3 (c : Dev nD) : FVec Ideal S2 .f32 := m ((c : Thread nD τ).loc main_arg7)

/-! ## The intermediate arrays, where the fold first holds them -/

abbrev hid1 (c : Dev nD) : FVec Ideal S100000x64 .f32 := W10 m ρ c (Proc.devRef .tc main_v36)
abbrev agg1 (c : Dev nD) : FVec Ideal S100000x64 .f32 := W13 m ρ c (Proc.devRef .tc main_v47)
abbrev hid2 (c : Dev nD) : FVec Ideal S100000x32 .f32 := W14 m ρ c (Proc.devRef .tc main_v49)
abbrev agg2 (c : Dev nD) : FVec Ideal S100000x32 .f32 := W17 m ρ c (Proc.devRef .tc main_v60)
abbrev hid3 (c : Dev nD) : FVec Ideal S100000x2 .f32 := W18 m ρ c (Proc.devRef .tc main_v62)
abbrev result (c : Dev nD) : FVec Ideal S100000x2 .f32 := W21 m ρ c (Proc.devRef .tc main_v76)

/-! ## One aggregation over the extended edge list -/

/-- Rows of `h` gathered along the extended source list, each scaled by its edge's (extended) weight and added into
    the row its (extended) destination names, at width 64. -/
def aggPad64 (h : FVec Ideal S100000x64 .f32) (ei : (⟨S2x1600000, .i32⟩ : BufTy).Contents (Elt Ideal)) : FVec Ideal S100000x64 .f32 :=
  Host.scatterAdd scatter_S100000x64_S1703936x1_S1703936x64_1_0_0_1
    (broadcastInDim S100000x64 ![] bcast_S_S100000x64 (constant S_ .f32 0x00000000#32))
    (broadcastInDim S1703936x1 ![0] bcast_S1703936_S1703936x1_0 (padNodes (dstOf ei)))
    (fun j => padWeights (normOf (srcOf ei) (dstOf ei)) (ix2 (j 0) (0 : Fin 1))
      * Host.gather gather_S100000x64_S1703936x1_S1703936x64_1_0_n_n_0_1_164 h (wrapPad (padNodes (srcOf ei))) j)

/-- The same at width 32. -/
def aggPad32 (h : FVec Ideal S100000x32 .f32) (ei : (⟨S2x1600000, .i32⟩ : BufTy).Contents (Elt Ideal)) : FVec Ideal S100000x32 .f32 :=
  Host.scatterAdd scatter_S100000x32_S1703936x1_S1703936x32_1_0_0_1
    (broadcastInDim S100000x32 ![] bcast_S_S100000x32 (constant S_ .f32 0x00000000#32))
    (broadcastInDim S1703936x1 ![0] bcast_S1703936_S1703936x1_0 (padNodes (dstOf ei)))
    (fun j => padWeights (normOf (srcOf ei) (dstOf ei)) (ix2 (j 0) (0 : Fin 1))
      * Host.gather gather_S100000x32_S1703936x1_S1703936x32_1_0_n_n_0_1_132 h (wrapPad (padNodes (srcOf ei))) j)

/-- The same at width 2. -/
def aggPad2 (h : FVec Ideal S100000x2 .f32) (ei : (⟨S2x1600000, .i32⟩ : BufTy).Contents (Elt Ideal)) : FVec Ideal S100000x2 .f32 :=
  Host.scatterAdd scatter_S100000x2_S1703936x1_S1703936x2_1_0_0_1
    (broadcastInDim S100000x2 ![] bcast_S_S100000x2 (constant S_ .f32 0x00000000#32))
    (broadcastInDim S1703936x1 ![0] bcast_S1703936_S1703936x1_0 (padNodes (dstOf ei)))
    (fun j => padWeights (normOf (srcOf ei) (dstOf ei)) (ix2 (j 0) (0 : Fin 1))
      * Host.gather gather_S100000x2_S1703936x1_S1703936x2_1_0_n_n_0_1_12 h (wrapPad (padNodes (srcOf ei))) j)

/-! ## Layer 1 -/

/-- The first product, entry by entry. -/
theorem hid1_apply (c : Dev nD) (p : Fin 100000) (q : Fin 64) :
    hid1 m ρ c (ix2 p q) = ∑ k : Fin 64, feats m c (ix2 p k) * wmat1 m c (ix2 k q) := by
  have h : hid1 m ρ c = MatmulRegions.prod1 (V9 m ρ) c := W10_arr m ρ c 2
  have hx : MatmulRegions.feats (V9 m ρ) c = feats m c := Carried.feats_at9 m ρ c
  have hw : MatmulRegions.wmat1 (V9 m ρ) c = wmat1 m c := Carried.wmat1_at9 m ρ c
  rw [h, MatmulRegions.prod1_apply, hx, hw]

/-- The rows the first scaling region is given: rows of the first product along the extended source list. -/
theorem rows1_eq (c : Dev nD) :
    ScaleRegions.rows1 (V11 m ρ) c
      = Host.gather gather_S100000x64_S1703936x1_S1703936x64_1_0_n_n_0_1_164 (hid1 m ρ c) (wrapPad (padNodes (srcOf (edges m c)))) := by
  show StableHlo.after hostOps1 (W10 m ρ c) (Proc.devRef .tc main_v43) = _
  after_results
  rw [Carried.src_at10 m ρ c]
  rfl

/-- The messages of layer 1: every gathered row scaled by its edge's weight. -/
theorem msgs1_eq (c : Dev nD) :
    (W12 m ρ c (Proc.devRef .tc main_v44) : FVec Ideal S1703936x64 .f32)
      = fun j => padWeights (normOf (srcOf (edges m c)) (dstOf (edges m c))) (ix2 (j 0) (0 : Fin 1))
          * Host.gather gather_S100000x64_S1703936x1_S1703936x64_1_0_n_n_0_1_164 (hid1 m ρ c) (wrapPad (padNodes (srcOf (edges m c)))) j := by
  have h : (W12 m ρ c (Proc.devRef .tc main_v44) : FVec Ideal S1703936x64 .f32) = ScaleRegions.msgs1 (V11 m ρ) c := W12_arr m ρ c 2
  have hw : ScaleRegions.weights (V11 m ρ) c = padWeights (normOf (srcOf (edges m c)) (dstOf (edges m c))) := Carried.weights_at11 m ρ c
  rw [h]
  funext j
  obtain ⟨e, q, rfl⟩ : ∃ (e : Fin 1703936) (q : Fin 64), j = ix2 e q := ⟨j 0, j 1, eq_ix2 j⟩
  rw [ScaleRegions.msgs1_apply, hw, rows1_eq]

/-- The first aggregate. -/
theorem agg1_eq (c : Dev nD) : agg1 m ρ c = aggPad64 (hid1 m ρ c) (edges m c) := by
  show StableHlo.after hostOps2 (W12 m ρ c) (Proc.devRef .tc main_v47) = _
  after_results
  rw [Carried.dst_at12 m ρ c, msgs1_eq m ρ c]
  rfl

/-! ## Layer 2 -/

/-- The bias row the second product region is given is the first bias vector. -/
theorem biasRow1_apply (c : Dev nD) (k : Fin 64) :
    MatmulRegions.bias1 (V13 m ρ) c (ix2 (0 : Fin 1) k) = bias1 m c (ix1 k) := by
  have h : MatmulRegions.bias1 (V13 m ρ) c = shapeCast S1x64 (bias1 m c) shapeCasts_S64_S1x64 := by
    show StableHlo.after hostOps2 (W12 m ρ c) (Proc.devRef .tc main_v48) = _
    after_results
    rw [Carried.bias1_at12 m ρ c]
    rfl
  rw [h]
  exact shapeCast_apply _ _ _ _ (by rw [Shape.rowMajor_val_one, Shape.rowMajor_val_two]; simp)

/-- The second product, entry by entry. -/
theorem hid2_apply (c : Dev nD) (p : Fin 100000) (q : Fin 32) :
    hid2 m ρ c (ix2 p q)
      = ∑ k : Fin 64, max (agg1 m ρ c (ix2 p k) + bias1 m c (ix1 k)) 0 * wmat2 m c (ix2 k q) := by
  have h : hid2 m ρ c = MatmulRegions.prod2 (V13 m ρ) c := W14_arr m ρ c 3
  have hw : MatmulRegions.wmat2 (V13 m ρ) c = wmat2 m c := Carried.wmat2_at13 m ρ c
  rw [h, MatmulRegions.prod2_apply, hw]
  refine Finset.sum_congr rfl fun k _ => ?_
  rw [biasRow1_apply m ρ c k]

theorem rows2_eq (c : Dev nD) :
    ScaleRegions.rows2 (V15 m ρ) c
      = Host.gather gather_S100000x32_S1703936x1_S1703936x32_1_0_n_n_0_1_132 (hid2 m ρ c) (wrapPad (padNodes (srcOf (edges m c)))) := by
  show StableHlo.after hostOps3 (W14 m ρ c) (Proc.devRef .tc main_v56) = _
  after_results
  rw [Carried.src_at14 m ρ c]
  rfl

theorem msgs2_eq (c : Dev nD) :
    (W16 m ρ c (Proc.devRef .tc main_v57) : FVec Ideal S1703936x32 .f32)
      = fun j => padWeights (normOf (srcOf (edges m c)) (dstOf (edges m c))) (ix2 (j 0) (0 : Fin 1))
          * Host.gather gather_S100000x32_S1703936x1_S1703936x32_1_0_n_n_0_1_132 (hid2 m ρ c) (wrapPad (padNodes (srcOf (edges m c)))) j := by
  have h : (W16 m ρ c (Proc.devRef .tc main_v57) : FVec Ideal S1703936x32 .f32) = ScaleRegions.msgs2 (V15 m ρ) c := W16_arr m ρ c 2
  have hw : ScaleRegions.weights (V15 m ρ) c = padWeights (normOf (srcOf (edges m c)) (dstOf (edges m c))) := Carried.weights_at15 m ρ c
  rw [h]
  funext j
  obtain ⟨e, q, rfl⟩ : ∃ (e : Fin 1703936) (q : Fin 32), j = ix2 e q := ⟨j 0, j 1, eq_ix2 j⟩
  rw [ScaleRegions.msgs2_apply, hw, rows2_eq]

/-- The second aggregate. -/
theorem agg2_eq (c : Dev nD) : agg2 m ρ c = aggPad32 (hid2 m ρ c) (edges m c) := by
  show StableHlo.after hostOps4 (W16 m ρ c) (Proc.devRef .tc main_v60) = _
  after_results
  rw [Carried.dst_at16 m ρ c, msgs2_eq m ρ c]
  rfl

/-! ## Layer 3 -/

theorem biasRow2_apply (c : Dev nD) (k : Fin 32) :
    MatmulRegions.bias2 (V17 m ρ) c (ix2 (0 : Fin 1) k) = bias2 m c (ix1 k) := by
  have h : MatmulRegions.bias2 (V17 m ρ) c = shapeCast S1x32 (bias2 m c) shapeCasts_S32_S1x32 := by
    show StableHlo.after hostOps4 (W16 m ρ c) (Proc.devRef .tc main_v61) = _
    after_results
    rw [Carried.bias2_at16 m ρ c]
    rfl
  rw [h]
  exact shapeCast_apply _ _ _ _ (by rw [Shape.rowMajor_val_one, Shape.rowMajor_val_two]; simp)

/-- The third product, entry by entry. -/
theorem hid3_apply (c : Dev nD) (p : Fin 100000) (q : Fin 2) :
    hid3 m ρ c (ix2 p q)
      = ∑ k : Fin 32, max (agg2 m ρ c (ix2 p k) + bias2 m c (ix1 k)) 0 * wmat3 m c (ix2 k q) := by
  have h : hid3 m ρ c = MatmulRegions.prod3 (V17 m ρ) c := W18_arr m ρ c 3
  have hw : MatmulRegions.wmat3 (V17 m ρ) c = wmat3 m c := Carried.wmat3_at17 m ρ c
  rw [h, MatmulRegions.prod3_apply, hw]
  refine Finset.sum_congr rfl fun k _ => ?_
  rw [biasRow2_apply m ρ c k]

theorem rows3_eq (c : Dev nD) :
    ScaleRegions.rows3 (V19 m ρ) c
      = Host.gather gather_S100000x2_S1703936x1_S1703936x2_1_0_n_n_0_1_12 (hid3 m ρ c) (wrapPad (padNodes (srcOf (edges m c)))) := by
  show StableHlo.after hostOps5 (W18 m ρ c) (Proc.devRef .tc main_v69) = _
  after_results
  rw [Carried.src_at18 m ρ c]
  rfl

theorem msgs3_eq (c : Dev nD) :
    (W20 m ρ c (Proc.devRef .tc main_v70) : FVec Ideal S1703936x2 .f32)
      = fun j => padWeights (normOf (srcOf (edges m c)) (dstOf (edges m c))) (ix2 (j 0) (0 : Fin 1))
          * Host.gather gather_S100000x2_S1703936x1_S1703936x2_1_0_n_n_0_1_12 (hid3 m ρ c) (wrapPad (padNodes (srcOf (edges m c)))) j := by
  have h : (W20 m ρ c (Proc.devRef .tc main_v70) : FVec Ideal S1703936x2 .f32) = ScaleRegions.msgs3 (V19 m ρ) c := W20_arr m ρ c 2
  have hw : ScaleRegions.weights (V19 m ρ) c = padWeights (normOf (srcOf (edges m c)) (dstOf (edges m c))) := Carried.weights_at19 m ρ c
  rw [h]
  funext j
  obtain ⟨e, q, rfl⟩ : ∃ (e : Fin 1703936) (q : Fin 2), j = ix2 e q := ⟨j 0, j 1, eq_ix2 j⟩
  rw [ScaleRegions.msgs3_apply, hw, rows3_eq]

/-- The program's result: the third aggregate plus the last bias along the rows. -/
theorem result_eq (c : Dev nD) :
    result m ρ c = addf (aggPad2 (hid3 m ρ c) (edges m c))
      (broadcastInDim S100000x2 ![0, 1] bcast_S1x2_S100000x2_0_1 (broadcastInDim S1x2 ![1] bcast_S2_S1x2_1 (bias3 m c))) := by
  show StableHlo.after hostOps6 (W20 m ρ c) (Proc.devRef .tc main_v76) = _
  after_results
  rw [Carried.dst_at20 m ρ c, msgs3_eq m ρ c, Carried.bias3_at20 m ρ c]
  rfl

end Cert.KernelIdeal.Layers

end
-- ==== Proof.LibRowScatter.lean ====
/-
  Rows gathered from, and rows added into, a two-dimensional array through a column of row numbers.

  `x[idx]` of an array `x : [n, D]` at row numbers `idx : [E, 1]` is the array `[E, D]` whose row `e` is row
  `idx[e]` of `x` (the row number read signed and clamped into `[0, n - 1]`). The accumulating scatter
  `x0.at[idx].add(upd)` adds row `e` of `upd : [E, D]` into row `idx[e]` of `x0 : [n, D]` when that row exists and
  drops it otherwise; over the extended reals the result at `(r, q)` is `x0 (r, q)` plus the sum of `upd (e, q)`
  over the rows `e` with `idx[e] = r`. Rows of zeros appended to `upd` (with any row numbers) add nothing.
-/
import Idealize.ShloMosaic.Lib.ValueIdx
import Idealize.ShloMosaic.PureOps.Ideal.Laws

noncomputable section

namespace Cert.Lib.RowScatter

open Idealize.ShloMosaic Idealize.ShloMosaic.ValueIdx

/-- The dimension numbers of `x[idx]` for `x : [n, D]`, `idx : [E, 1]`, result `[E, D]`. -/
abbrev rowGather (n E D : Nat)
    (wf : GatherDims.WF ⟨2, ![n, D]⟩ ⟨2, ![E, 1]⟩ ⟨2, ![E, D]⟩ [1] [0] [] [0] [] 1 ![1, D]) :
    GatherDims ⟨2, ![n, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of `x0.at[idx].add(upd)` for `x0 : [n, D]`, `idx : [E, 1]`, `upd : [E, D]`. -/
abbrev rowScatter (n E D : Nat)
    (wf : ScatterDims.WF ⟨2, ![n, D]⟩ ⟨2, ![E, 1]⟩ ⟨2, ![E, D]⟩ [1] [0] [0] 1) :
    ScatterDims ⟨2, ![n, D]⟩ ⟨2, ![E, 1]⟩ ⟨2, ![E, D]⟩ where
  updateWindowDims := [1]
  insertedWindowDims := [0]
  scatterDimsToOperandDims := [0]
  indexVectorDim := 1
  wf := wf

/-- Row `e` of the gathered array is row `idx[e]` of the operand, the row number read signed and clamped. -/
theorem gather_rows_apply {α : Type} {n E D w : Nat} (hn : 0 < n)
    (wf : GatherDims.WF ⟨2, ![n, D]⟩ ⟨2, ![E, 1]⟩ ⟨2, ![E, D]⟩ [1] [0] [] [0] [] 1 ![1, D])
    (x : (⟨2, ![n, D]⟩ : Shape).Idx → α) (idx : IVec ⟨2, ![E, 1]⟩ w) (e : Fin E) (q : Fin D) :
    Host.gather (rowGather n E D wf) x idx (ix2 e q)
      = x (ix2 ⟨min (idx (ix2 e (0 : Fin 1))).toInt.toNat (n - 1), by omega⟩ q) := by
  unfold Host.gather
  congr 1
  funext a
  refine Fin.ext ?_
  match a with
  | ⟨0, _⟩ =>
    show (rowGather n E D wf).start (ix2 e q) idx 0 + (rowGather n E D wf).batchCoord (ix2 e q) 0
      + (rowGather n E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather n E D wf).startIndexMap from List.mem_singleton.mpr rfl)]
    have hsi : (rowGather n E D wf).siIdx (ix2 e q) ⟨List.idxOf (0 : Fin 2) (rowGather n E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather n E D wf).start (ix2 e q) idx 1 + (rowGather n E D wf).batchCoord (ix2 e q) 1
      + (rowGather n E D wf).offCoord (ix2 e q) 1 = q.val
    rw [GatherDims.batchCoord_eq_zero _ _ _ List.not_mem_nil]
    have hs : (rowGather n E D wf).start (ix2 e q) idx 1 = 0 := by
      unfold GatherDims.start
      rw [dif_neg (show (1 : Fin 2) ∉ (rowGather n E D wf).startIndexMap from
        fun h => absurd (List.mem_singleton.mp h) (show (1 : Fin 2) ≠ 0 by decide))]
    have ho : (rowGather n E D wf).offCoord (ix2 e q) 1 = q.val := by
      unfold GatherDims.offCoord
      rw [dif_pos (show (1 : Fin 2) ∈ (rowGather n E D wf).sKept from (GatherDims.mem_sKept _ _).mpr
        ⟨fun h => absurd (List.mem_singleton.mp h) (show (1 : Fin 2) ≠ 0 by decide), List.not_mem_nil⟩)]
      rfl
    rw [hs, ho]; omega

/-- An update lands on `i` exactly when, on every axis, its window start plus its window coordinate is `i`'s
    coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show d.start j idx a + (d.window j a : Int) = ((d.start j idx a + (d.window j a : Int)).toNat : Int)
      exact (Int.toNat_of_nonneg (h a).1).symm
    · intro h2
      funext a
      refine Fin.ext ?_
      show (d.start j idx a + (d.window j a : Int)).toNat = (i a).val
      rw [h2 a]; rfl
  · rename_i h
    constructor
    · intro h2; exact absurd h2 (by simp)
    · intro h2
      exfalso; apply h
      intro a
      rw [h2 a]
      exact ⟨Int.natCast_nonneg _, by exact_mod_cast (i a).isLt⟩

section Closed
variable {n E D w : Nat} (wf : ScatterDims.WF ⟨2, ![n, D]⟩ ⟨2, ![E, 1]⟩ ⟨2, ![E, D]⟩ [1] [0] [0] 1)
  (j : (⟨2, ![E, D]⟩ : Shape).Idx) (idx : IVec ⟨2, ![E, 1]⟩ w)

/-- On the row axis the window starts at the row number of the update's row, read signed. -/
private theorem start_zero :
    (rowScatter n E D wf).start j idx 0 = (idx (ix2 (j 0 : Fin E) (0 : Fin 1))).toInt := by
  unfold ScatterDims.start
  rw [dif_pos (show (0 : Fin 2) ∈ (rowScatter n E D wf).scatterDimsToOperandDims from List.mem_singleton.mpr rfl)]
  have hsi : (rowScatter n E D wf).siIdx j ⟨List.idxOf (0 : Fin 2) (rowScatter n E D wf).scatterDimsToOperandDims,
      List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

/-- On the column axis the window starts at `0`. -/
private theorem start_one : (rowScatter n E D wf).start j idx 1 = 0 := by
  unfold ScatterDims.start
  rw [dif_neg (show (1 : Fin 2) ∉ (rowScatter n E D wf).scatterDimsToOperandDims from
    fun h => absurd (List.mem_singleton.mp h) (show (1 : Fin 2) ≠ 0 by decide))]

/-- The row axis is an inserted axis: no window coordinate. -/
private theorem window_zero : (rowScatter n E D wf).window j 0 = 0 := by
  unfold ScatterDims.window
  rw [dif_neg (show (0 : Fin 2) ∉ (rowScatter n E D wf).sKept from fun h => by
    have := (List.mem_filter.mp h).2
    simp at this)]

/-- On the column axis the window coordinate is the update's column. -/
private theorem window_one : (rowScatter n E D wf).window j 1 = (j 1).val := by
  unfold ScatterDims.window
  rw [dif_pos (show (1 : Fin 2) ∈ (rowScatter n E D wf).sKept from
    List.mem_filter.mpr ⟨List.mem_finRange _, by simp⟩)]
  rfl

end Closed

/-- Appending rows of zeros to the updates (whatever their row numbers) does not change the accumulated array. -/
theorem scatterAdd_rows_pad {n E E' D : Nat} (hE : E ≤ E')
    (wf : ScatterDims.WF ⟨2, ![n, D]⟩ ⟨2, ![E, 1]⟩ ⟨2, ![E, D]⟩ [1] [0] [0] 1)
    (wf' : ScatterDims.WF ⟨2, ![n, D]⟩ ⟨2, ![E', 1]⟩ ⟨2, ![E', D]⟩ [1] [0] [0] 1)
    (x0 : FVec Ideal ⟨2, ![n, D]⟩ .f32) (idx : IVec ⟨2, ![E, 1]⟩ 32) (idx' : IVec ⟨2, ![E', 1]⟩ 32)
    (upd : FVec Ideal ⟨2, ![E, D]⟩ .f32) (upd' : FVec Ideal ⟨2, ![E', D]⟩ .f32)
    (hidx : ∀ e : Fin E, idx' (ix2 (e.castLE hE) (0 : Fin 1)) = idx (ix2 e (0 : Fin 1)))
    (hupd : ∀ (e : Fin E) (q : Fin D), upd' (ix2 (e.castLE hE) q) = upd (ix2 e q))
    (hzero : ∀ (e : Fin E') (q : Fin D), E ≤ e.val → upd' (ix2 e q) = 0) :
    Host.scatterAdd (rowScatter n E' D wf') x0 idx' upd' = Host.scatterAdd (rowScatter n E D wf) x0 idx upd := by
  funext i
  unfold Host.scatterAdd
  rw [Ideal.hostScatterAdd_def, Ideal.hostScatterAdd_def]
  unfold Ideal.hostScatterAdd
  congr 1
  rw [Finset.sum_filter, Finset.sum_filter]
  symm
  -- the sum over the updates `[E, D]` is the sum over `[E', D]` along the embedding that keeps both coordinates
  refine Fintype.sum_of_injective
    (fun j : (⟨2, ![E, D]⟩ : Shape).Idx =>
      (ix2 (Fin.castLE hE (j 0 : Fin E)) (j 1 : Fin D) : (⟨2, ![E', D]⟩ : Shape).Idx))
    ?_ _ _ ?_ ?_
  · intro j1 j2 h
    have h0 : Fin.castLE hE (j1 0 : Fin E) = Fin.castLE hE (j2 0 : Fin E) := congrFun h 0
    have h1 : (j1 1 : Fin D) = (j2 1 : Fin D) := congrFun h 1
    have h0' : (j1 0 : Fin E) = (j2 0 : Fin E) := Fin.ext (by have h := congrArg Fin.val h0; exact h)
    funext a
    match a with
    | ⟨0, _⟩ => exact h0'
    | ⟨1, _⟩ => exact h1
  · -- outside the embedding the row is an appended one: its update is zero
    intro j' hj'
    have hge : E ≤ (j' 0).val := by
      by_contra hlt
      apply hj'
      refine ⟨ix2 (⟨(j' 0).val, by omega⟩ : Fin E) (j' 1 : Fin D), ?_⟩
      funext a
      match a with
      | ⟨0, _⟩ => rfl
      | ⟨1, _⟩ => rfl
    have hz : upd' j' = 0 := by
      rw [eq_ix2 j']; exact hzero _ _ hge
    rw [hz, ite_self]
  · -- on the embedding the update, its row number and its column are the original ones
    intro j
    have hu : upd' (ix2 (Fin.castLE hE (j 0 : Fin E)) (j 1 : Fin D)) = upd j := by
      exact (hupd (j 0) (j 1)).trans (congrArg upd (eq_ix2 j).symm)
    have hp : ((rowScatter n E' D wf').resultIdx? (ix2 (Fin.castLE hE (j 0 : Fin E)) (j 1 : Fin D)) idx' = some i)
        ↔ ((rowScatter n E D wf).resultIdx? j idx = some i) := by
      rw [resultIdx?_eq_some_iff, resultIdx?_eq_some_iff]
      refine forall_congr' fun a => ?_
      match a with
      | ⟨0, _⟩ =>
        show (rowScatter n E' D wf').start _ idx' 0 + ((rowScatter n E' D wf').window _ 0 : Int) = _
          ↔ (rowScatter n E D wf).start j idx 0 + ((rowScatter n E D wf).window j 0 : Int) = _
        rw [start_zero, start_zero, window_zero, window_zero]
        exact Iff.of_eq (congrArg (fun t : BitVec 32 => t.toInt + ((0 : Nat) : Int) = ((i 0).val : Int)) (hidx (j 0)))
      | ⟨1, _⟩ =>
        show (rowScatter n E' D wf').start _ idx' 1 + ((rowScatter n E' D wf').window _ 1 : Int) = _
          ↔ (rowScatter n E D wf).start j idx 1 + ((rowScatter n E D wf).window j 1 : Int) = _
        rw [start_one, start_one, window_one, window_one]
        exact Iff.rfl
    rw [hu]
    exact (if_congr hp rfl rfl).symm

/-- The aggregation step itself: rows of `h` gathered through `sidx`, each scaled by a per-row weight, added into the
    rows `didx` names. Extending the row lists by rows of weight zero (whatever they gather and wherever they point)
    leaves the result unchanged. On the longer side the weight is a column `[E', 1]`; on the shorter side it is
    given already broadcast along the row, `[E, D]`. -/
theorem scaledRows_pad {n E E' D : Nat} (hE : E ≤ E') (hn : 0 < n)
    (wfg : GatherDims.WF ⟨2, ![n, D]⟩ ⟨2, ![E, 1]⟩ ⟨2, ![E, D]⟩ [1] [0] [] [0] [] 1 ![1, D])
    (wfg' : GatherDims.WF ⟨2, ![n, D]⟩ ⟨2, ![E', 1]⟩ ⟨2, ![E', D]⟩ [1] [0] [] [0] [] 1 ![1, D])
    (wfs : ScatterDims.WF ⟨2, ![n, D]⟩ ⟨2, ![E, 1]⟩ ⟨2, ![E, D]⟩ [1] [0] [0] 1)
    (wfs' : ScatterDims.WF ⟨2, ![n, D]⟩ ⟨2, ![E', 1]⟩ ⟨2, ![E', D]⟩ [1] [0] [0] 1)
    (x0 h : FVec Ideal ⟨2, ![n, D]⟩ .f32)
    (didx sidx : IVec ⟨2, ![E, 1]⟩ 32) (didx' sidx' : IVec ⟨2, ![E', 1]⟩ 32)
    (w : FVec Ideal ⟨2, ![E, D]⟩ .f32) (w' : FVec Ideal ⟨2, ![E', 1]⟩ .f32)
    (hd : ∀ e : Fin E, didx' (ix2 (e.castLE hE) (0 : Fin 1)) = didx (ix2 e (0 : Fin 1)))
    (hs : ∀ e : Fin E, sidx' (ix2 (e.castLE hE) (0 : Fin 1)) = sidx (ix2 e (0 : Fin 1)))
    (hw : ∀ (e : Fin E) (q : Fin D), w' (ix2 (e.castLE hE) (0 : Fin 1)) = w (ix2 e q))
    (hw0 : ∀ e : Fin E', E ≤ e.val → w' (ix2 e (0 : Fin 1)) = 0) :
    Host.scatterAdd (rowScatter n E' D wfs') x0 didx'
        (fun j => w' (ix2 (j 0) (0 : Fin 1)) * Host.gather (rowGather n E' D wfg') h sidx' j)
      = Host.scatterAdd (rowScatter n E D wfs) x0 didx (mulf w (Host.gather (rowGather n E D wfg) h sidx)) := by
  refine scatterAdd_rows_pad hE wfs wfs' x0 didx didx' _ _ hd ?_ ?_
  · -- an original row: same weight, same gathered row
    intro e q
    show w' (ix2 (e.castLE hE) (0 : Fin 1)) * Host.gather (rowGather n E' D wfg') h sidx' (ix2 (e.castLE hE) q)
      = w (ix2 e q) * Host.gather (rowGather n E D wfg) h sidx (ix2 e q)
    have key : ∀ (a b : Nat) (ha : a < n) (hb : b < n), a = b →
        h (ix2 (⟨a, ha⟩ : Fin n) q) = h (ix2 (⟨b, hb⟩ : Fin n) q) := by
      intro a b ha hb hab
      subst hab
      rfl
    rw [gather_rows_apply hn, gather_rows_apply hn, hw e q]
    congr 1
    exact key _ _ _ _ (by rw [hs e])
  · -- an appended row: weight zero
    intro e q he
    show w' (ix2 e (0 : Fin 1)) * Host.gather (rowGather n E' D wfg') h sidx' (ix2 e q) = 0
    rw [hw0 e he, zero_mul]

end Cert.Lib.RowScatter

end
-- ==== Proof.LibPadTail.lean ====
/-
  A one-axis array extended at its end by a constant.

  `pad` with no low padding and no interior padding on a rank-one array `x : [n]` gives the array `[n']` that
  holds `x` at the positions below `n` and the padding value (the one element of a rank-zero array) from `n` on.
-/
import Idealize.ShloMosaic.Lib.ValueIdx
import Idealize.ShloMosaic.PureOps.ShapeOps

noncomputable section

namespace Cert.Lib.PadTail

open Idealize.ShloMosaic Idealize.ShloMosaic.ValueIdx

/-- Below the operand's length the extended array holds the operand. -/
theorem pad_tail_of_lt {α : Type} {n n' : Nat} (hi : Fin 1 → Nat) (x : (⟨1, ![n]⟩ : Shape).Idx → α) {u : Shape} (v : u.Idx → α)
    (h : (⟨1, ![n]⟩ : Shape).Pads ![0] hi ![0] ⟨1, ![n']⟩) (hu : 0 < u.numel) (e : Fin n') (he : e.val < n) :
    pad ⟨1, ![n']⟩ ![0] hi ![0] x v h hu (ix1 e) = x (ix1 ⟨e.val, he⟩) := by
  unfold pad
  split
  · congr 1
    funext a
    obtain rfl : a = 0 := Subsingleton.elim _ _
    refine Fin.ext ?_
    show (e.val - 0) / (0 + 1) = e.val
    omega
  · rename_i hin
    exfalso
    apply hin
    intro a
    obtain rfl : a = 0 := Subsingleton.elim _ _
    refine ⟨Nat.zero_le _, ?_, ?_⟩
    · show (e.val - 0) % (0 + 1) = 0
      omega
    · show (e.val - 0) / (0 + 1) < n
      omega

/-- From the operand's length on it holds the padding value. -/
theorem pad_tail_of_ge {α : Type} {n n' : Nat} (hi : Fin 1 → Nat) (x : (⟨1, ![n]⟩ : Shape).Idx → α) {u : Shape} (v : u.Idx → α)
    (h : (⟨1, ![n]⟩ : Shape).Pads ![0] hi ![0] ⟨1, ![n']⟩) (hu : 0 < u.numel) (e : Fin n') (he : n ≤ e.val) :
    pad ⟨1, ![n']⟩ ![0] hi ![0] x v h hu (ix1 e) = v (Shape.Idx.first hu) := by
  unfold pad
  split
  · rename_i hin
    exfalso
    have h2 : (e.val - 0) / (0 + 1) < n := (hin 0).2.2
    omega
  · rfl

end Cert.Lib.PadTail

end
-- ==== Proof.Bridge.lean ====
/-
  The kernel program and the reference compute the same array.

  Both run the same three-step network; they differ in two ways. The kernel program forms each matrix product in a
  region, block of rows by block of rows, where the reference has one product: over the extended reals both are the
  same sum over the contracted axis. And the kernel program runs each aggregation over the edge list extended by
  3936 entries that name node 0 and carry weight zero: an extended entry adds `0 · (row 0 of the features)`, which
  is zero over the extended reals whatever that row holds, into node 0, so the aggregate is the reference's.
-/
import proofs.«130575_j19585050869931_1_alg».proof.Proof.Layers
import proofs.«130575_j19585050869931_1_alg».proof.Proof.Spec
import proofs.«130575_j19585050869931_1_alg».proof.Proof.LibRowScatter
import proofs.«130575_j19585050869931_1_alg».proof.Proof.LibPadTail
import proofs.«130575_j19585050869931_1_alg».proof.Proof.LibPlainDot
import Idealize.ShloMosaic.Lib.ValueIdx
import Idealize.ShloMosaic.Lib.SortFacts
import Idealize.ShloMosaic.Lib.StableHlo.Predicate
import Idealize.ShloMosaic.Lib.Pipeline.Value
import Idealize.ShloMosaic.PureOps.Ideal.Laws

set_option maxRecDepth 16384

noncomputable section

namespace Cert.Proof.Bridge

open Idealize.ShloMosaic Idealize.ShloMosaic.TcCoe Idealize.ShloMosaic.ValueIdx Idealize.SL.Sem
open Idealize.ShloMosaic.StableHlo.Predicate (ij ixP bcast_rows bcast_cols bcast_col1 bcast_scalar)
open Cert.Lib

/-! ## Index spellings -/

theorem ij_eq {n k : Nat} (p : Fin n) (q : Fin k) : ij p q = ix2 p q := by
  funext a; match a with | ⟨0, _⟩ => rfl | ⟨1, _⟩ => rfl

theorem ixP_eq {n : Nat} (p : Fin n) : ixP p = ix2 p (0 : Fin 1) := by
  funext a; match a with | ⟨0, _⟩ => rfl | ⟨1, _⟩ => rfl

theorem ofFin_eq {n : Nat} (p : Fin n) : Shape.Idx.ofFin p = ix1 p := by
  funext a; match a with | ⟨0, _⟩ => rfl

/-! ## The two programs' host arrays before the first region are the same -/

theorem srcOf_eq (ei : (⟨Cert.KernelIdeal.S2x1600000, .i32⟩ : BufTy).Contents (Elt Ideal)) :
    Cert.KernelIdeal.Values.srcOf ei = Cert.ReferenceIdeal.Spec.srcOf ei := rfl
theorem dstOf_eq (ei : (⟨Cert.KernelIdeal.S2x1600000, .i32⟩ : BufTy).Contents (Elt Ideal)) :
    Cert.KernelIdeal.Values.dstOf ei = Cert.ReferenceIdeal.Spec.dstOf ei := rfl
theorem normOf_eq (s d : (⟨Cert.KernelIdeal.S1700000, .i32⟩ : BufTy).Contents (Elt Ideal)) :
    Cert.KernelIdeal.Values.normOf s d = Cert.ReferenceIdeal.Spec.normOf s d := rfl

/-! ## The extended arrays at an entry -/

theorem le_ext : 1700000 ≤ 1703936 := by decide

/-- Below the original length an extended node list is the list. -/
theorem padNodes_apply (s : (⟨Cert.KernelIdeal.S1700000, .i32⟩ : BufTy).Contents (Elt Ideal)) (e : Fin 1700000) :
    Cert.KernelIdeal.Values.padNodes s (ix1 (e.castLE le_ext)) = s (ix1 e) :=
  PadTail.pad_tail_of_lt _ _ _ _ _ (e.castLE le_ext) e.isLt

/-- Below the original length the extended weight column is the weight. -/
theorem padWeights_apply_lt (w : (⟨Cert.KernelIdeal.S1700000, .f32⟩ : BufTy).Contents (Elt Ideal)) (e : Fin 1700000) :
    Cert.KernelIdeal.Values.padWeights w (ix2 (e.castLE le_ext) (0 : Fin 1)) = w (ix1 e) := by
  unfold Cert.KernelIdeal.Values.padWeights
  rw [shapeCast_apply _ _ _ (ix1 (e.castLE le_ext)) (by rw [Shape.rowMajor_val_one, Shape.rowMajor_val_two]; simp)]
  exact PadTail.pad_tail_of_lt _ _ _ _ _ (e.castLE le_ext) e.isLt

/-- From the original length on the extended weight column is zero. -/
theorem padWeights_apply_ge (w : (⟨Cert.KernelIdeal.S1700000, .f32⟩ : BufTy).Contents (Elt Ideal)) (e : Fin 1703936) (he : 1700000 ≤ e.val) :
    Cert.KernelIdeal.Values.padWeights w (ix2 e (0 : Fin 1)) = 0 := by
  unfold Cert.KernelIdeal.Values.padWeights
  rw [shapeCast_apply _ _ _ (ix1 e) (by rw [Shape.rowMajor_val_one, Shape.rowMajor_val_two]; simp)]
  rw [PadTail.pad_tail_of_ge _ _ _ _ _ e he]
  exact Ideal.ofBits_zero_f32

/-- The extended destination list as a column, below the original length. -/
theorem dstCol_apply (d : (⟨Cert.KernelIdeal.S1700000, .i32⟩ : BufTy).Contents (Elt Ideal)) (e : Fin 1700000) :
    broadcastInDim Cert.KernelIdeal.S1703936x1 ![0] Cert.KernelIdeal.Gen.bcast_S1703936_S1703936x1_0 (Cert.KernelIdeal.Values.padNodes d) (ix2 (e.castLE le_ext) (0 : Fin 1))
      = broadcastInDim Cert.ReferenceIdeal.S1700000x1 ![0] Cert.ReferenceIdeal.Gen.bcast_S1700000_S1700000x1_0 d (ix2 e (0 : Fin 1)) := by
  rw [← ixP_eq, ← ixP_eq, bcast_col1, bcast_col1, ofFin_eq, ofFin_eq, padNodes_apply]

/-- The extended source list as a column of gather indices, below the original length. -/
theorem srcCol_apply (s : (⟨Cert.KernelIdeal.S1700000, .i32⟩ : BufTy).Contents (Elt Ideal)) (e : Fin 1700000) :
    Cert.KernelIdeal.Values.wrapPad (Cert.KernelIdeal.Values.padNodes s) (ix2 (e.castLE le_ext) (0 : Fin 1))
      = Cert.ReferenceIdeal.Spec.wrapOf s (ix2 e (0 : Fin 1)) := by
  unfold Cert.KernelIdeal.Values.wrapPad Cert.ReferenceIdeal.Spec.wrapOf
  rw [← ixP_eq, ← ixP_eq, bcast_col1, bcast_col1, ofFin_eq, ofFin_eq]
  simp only [select, cmpi, addi, padNodes_apply]
  rw [bcast_scalar _ (by decide), bcast_scalar _ (by decide), bcast_scalar _ (by decide), bcast_scalar _ (by decide)]

/-! ## The three aggregations -/

/-- Below the original length the extended weight column is the reference's weight laid along a row of width 64. -/
theorem weightRow64_apply (w : (⟨Cert.KernelIdeal.S1700000, .f32⟩ : BufTy).Contents (Elt Ideal)) (e : Fin 1700000) (q : Fin 64) :
    Cert.KernelIdeal.Values.padWeights w (ix2 (e.castLE le_ext) (0 : Fin 1))
      = broadcastInDim Cert.ReferenceIdeal.S1700000x64 ![0, 1] Cert.ReferenceIdeal.Gen.bcast_S1700000x1_S1700000x64_0_1
          (broadcastInDim Cert.ReferenceIdeal.S1700000x1 ![0] Cert.ReferenceIdeal.Gen.bcast_S1700000_S1700000x1_0 w) (ix2 e q) := by
  rw [padWeights_apply_lt, ← ij_eq, bcast_rows, ofFin_eq]

/-- One aggregation at width 64 over the extended edge list is the reference's over the original one. -/
theorem aggPad64_eq (h : (⟨Cert.KernelIdeal.S100000x64, .f32⟩ : BufTy).Contents (Elt Ideal)) (ei : (⟨Cert.KernelIdeal.S2x1600000, .i32⟩ : BufTy).Contents (Elt Ideal)) :
    Cert.KernelIdeal.Layers.aggPad64 h ei
      = Cert.ReferenceIdeal.Spec.conv64 h (Cert.ReferenceIdeal.Spec.wrapOf (Cert.ReferenceIdeal.Spec.srcOf ei)) (Cert.ReferenceIdeal.Spec.dstOf ei)
          (Cert.ReferenceIdeal.Spec.normOf (Cert.ReferenceIdeal.Spec.srcOf ei) (Cert.ReferenceIdeal.Spec.dstOf ei)) := by
  unfold Cert.KernelIdeal.Layers.aggPad64 Cert.ReferenceIdeal.Spec.conv64
  rw [srcOf_eq, dstOf_eq, normOf_eq]
  exact RowScatter.scaledRows_pad (n := 100000) (E := 1700000) (E' := 1703936) (D := 64) le_ext (by decide)
    _ _ _ _ _ h _ _ _ _ _ _
    (fun e => dstCol_apply _ e) (fun e => srcCol_apply _ e) (fun e q => weightRow64_apply _ e q)
    (fun e he => padWeights_apply_ge _ e he)

/-- Below the original length the extended weight column is the reference's weight laid along a row of width 32. -/
theorem weightRow32_apply (w : (⟨Cert.KernelIdeal.S1700000, .f32⟩ : BufTy).Contents (Elt Ideal)) (e : Fin 1700000) (q : Fin 32) :
    Cert.KernelIdeal.Values.padWeights w (ix2 (e.castLE le_ext) (0 : Fin 1))
      = broadcastInDim Cert.ReferenceIdeal.S1700000x32 ![0, 1] Cert.ReferenceIdeal.Gen.bcast_S1700000x1_S1700000x32_0_1
          (broadcastInDim Cert.ReferenceIdeal.S1700000x1 ![0] Cert.ReferenceIdeal.Gen.bcast_S1700000_S1700000x1_0 w) (ix2 e q) := by
  rw [padWeights_apply_lt, ← ij_eq, bcast_rows, ofFin_eq]

/-- One aggregation at width 32 over the extended edge list is the reference's over the original one. -/
theorem aggPad32_eq (h : (⟨Cert.KernelIdeal.S100000x32, .f32⟩ : BufTy).Contents (Elt Ideal)) (ei : (⟨Cert.KernelIdeal.S2x1600000, .i32⟩ : BufTy).Contents (Elt Ideal)) :
    Cert.KernelIdeal.Layers.aggPad32 h ei
      = Cert.ReferenceIdeal.Spec.conv32 h (Cert.ReferenceIdeal.Spec.wrapOf (Cert.ReferenceIdeal.Spec.srcOf ei)) (Cert.ReferenceIdeal.Spec.dstOf ei)
          (Cert.ReferenceIdeal.Spec.normOf (Cert.ReferenceIdeal.Spec.srcOf ei) (Cert.ReferenceIdeal.Spec.dstOf ei)) := by
  unfold Cert.KernelIdeal.Layers.aggPad32 Cert.ReferenceIdeal.Spec.conv32
  rw [srcOf_eq, dstOf_eq, normOf_eq]
  exact RowScatter.scaledRows_pad (n := 100000) (E := 1700000) (E' := 1703936) (D := 32) le_ext (by decide)
    _ _ _ _ _ h _ _ _ _ _ _
    (fun e => dstCol_apply _ e) (fun e => srcCol_apply _ e) (fun e q => weightRow32_apply _ e q)
    (fun e he => padWeights_apply_ge _ e he)

/-- Below the original length the extended weight column is the reference's weight laid along a row of width 2. -/
theorem weightRow2_apply (w : (⟨Cert.KernelIdeal.S1700000, .f32⟩ : BufTy).Contents (Elt Ideal)) (e : Fin 1700000) (q : Fin 2) :
    Cert.KernelIdeal.Values.padWeights w (ix2 (e.castLE le_ext) (0 : Fin 1))
      = broadcastInDim Cert.ReferenceIdeal.S1700000x2 ![0, 1] Cert.ReferenceIdeal.Gen.bcast_S1700000x1_S1700000x2_0_1
          (broadcastInDim Cert.ReferenceIdeal.S1700000x1 ![0] Cert.ReferenceIdeal.Gen.bcast_S1700000_S1700000x1_0 w) (ix2 e q) := by
  rw [padWeights_apply_lt, ← ij_eq, bcast_rows, ofFin_eq]

/-- One aggregation at width 2 over the extended edge list is the reference's over the original one. -/
theorem aggPad2_eq (h : (⟨Cert.KernelIdeal.S100000x2, .f32⟩ : BufTy).Contents (Elt Ideal)) (ei : (⟨Cert.KernelIdeal.S2x1600000, .i32⟩ : BufTy).Contents (Elt Ideal)) :
    Cert.KernelIdeal.Layers.aggPad2 h ei
      = Cert.ReferenceIdeal.Spec.conv2 h (Cert.ReferenceIdeal.Spec.wrapOf (Cert.ReferenceIdeal.Spec.srcOf ei)) (Cert.ReferenceIdeal.Spec.dstOf ei)
          (Cert.ReferenceIdeal.Spec.normOf (Cert.ReferenceIdeal.Spec.srcOf ei) (Cert.ReferenceIdeal.Spec.dstOf ei)) := by
  unfold Cert.KernelIdeal.Layers.aggPad2 Cert.ReferenceIdeal.Spec.conv2
  rw [srcOf_eq, dstOf_eq, normOf_eq]
  exact RowScatter.scaledRows_pad (n := 100000) (E := 1700000) (E' := 1703936) (D := 2) le_ext (by decide)
    _ _ _ _ _ h _ _ _ _ _ _
    (fun e => dstCol_apply _ e) (fun e => srcCol_apply _ e) (fun e q => weightRow2_apply _ e q)
    (fun e he => padWeights_apply_ge _ e he)

/-! ## The three products -/

section Products

variable (m : (ℓ : Loc Cert.KernelIdeal.nD Cert.KernelIdeal.τ Cert.KernelIdeal.sig) → Buf (Elt Ideal) ℓ) (ρ : Dev Cert.KernelIdeal.nD → PrngReg)

/-- The bias laid along the rows and the clamp at zero, at an entry, width 64. -/
theorem act64_apply (a : (⟨Cert.KernelIdeal.S100000x64, .f32⟩ : BufTy).Contents (Elt Ideal)) (b : (⟨Cert.KernelIdeal.S64, .f32⟩ : BufTy).Contents (Elt Ideal)) (p : Fin 100000) (k : Fin 64) :
    Cert.ReferenceIdeal.Spec.act64 a b (ix2 p k) = max (a (ix2 p k) + b (ix1 k)) 0 := by
  unfold Cert.ReferenceIdeal.Spec.act64
  show max (a (ix2 p k) + _) _ = _
  rw [← ij_eq, bcast_cols, bcast_scalar _ (by decide), ofFin_eq]
  exact congrArg (max _) Ideal.ofBits_zero_f32

/-- The same at width 32. -/
theorem act32_apply (a : (⟨Cert.KernelIdeal.S100000x32, .f32⟩ : BufTy).Contents (Elt Ideal)) (b : (⟨Cert.KernelIdeal.S32, .f32⟩ : BufTy).Contents (Elt Ideal)) (p : Fin 100000) (k : Fin 32) :
    Cert.ReferenceIdeal.Spec.act32 a b (ix2 p k) = max (a (ix2 p k) + b (ix1 k)) 0 := by
  unfold Cert.ReferenceIdeal.Spec.act32
  show max (a (ix2 p k) + _) _ = _
  rw [← ij_eq, bcast_cols, bcast_scalar _ (by decide), ofFin_eq]
  exact congrArg (max _) Ideal.ofBits_zero_f32

/-- Region 0's output is the reference's first product. -/
theorem hid1_eq (c : Dev Cert.KernelIdeal.nD) :
    Cert.KernelIdeal.Layers.hid1 m ρ c
      = Host.dotGeneral Cert.ReferenceIdeal.dot_S100000x64_S64x64_S100000x64_1_0_0_1_n_n none (Cert.KernelIdeal.Layers.feats m c) (Cert.KernelIdeal.Layers.wmat1 m c) := by
  funext j
  obtain ⟨p, q, rfl⟩ : ∃ (p : Fin 100000) (q : Fin 64), j = ix2 p q := ⟨j 0, j 1, eq_ix2 j⟩
  rw [Cert.KernelIdeal.Layers.hid1_apply]
  exact (PlainDot.dotGeneral_apply none .single _ _ p q).symm

/-- Region 2's output is the reference's second product of the clamped, biased first aggregate. -/
theorem hid2_eq (c : Dev Cert.KernelIdeal.nD) :
    Cert.KernelIdeal.Layers.hid2 m ρ c
      = Host.dotGeneral Cert.ReferenceIdeal.dot_S100000x64_S64x32_S100000x32_1_0_0_1_n_n none
          (Cert.ReferenceIdeal.Spec.act64 (Cert.KernelIdeal.Layers.agg1 m ρ c) (Cert.KernelIdeal.Layers.bias1 m c)) (Cert.KernelIdeal.Layers.wmat2 m c) := by
  funext j
  obtain ⟨p, q, rfl⟩ : ∃ (p : Fin 100000) (q : Fin 32), j = ix2 p q := ⟨j 0, j 1, eq_ix2 j⟩
  rw [Cert.KernelIdeal.Layers.hid2_apply]
  refine Eq.trans ?_ (PlainDot.dotGeneral_apply none .single _ _ p q).symm
  refine Finset.sum_congr rfl fun k _ => ?_
  rw [act64_apply]

/-- Region 4's output is the reference's third product of the clamped, biased second aggregate. -/
theorem hid3_eq (c : Dev Cert.KernelIdeal.nD) :
    Cert.KernelIdeal.Layers.hid3 m ρ c
      = Host.dotGeneral Cert.ReferenceIdeal.dot_S100000x32_S32x2_S100000x2_1_0_0_1_n_n none
          (Cert.ReferenceIdeal.Spec.act32 (Cert.KernelIdeal.Layers.agg2 m ρ c) (Cert.KernelIdeal.Layers.bias2 m c)) (Cert.KernelIdeal.Layers.wmat3 m c) := by
  funext j
  obtain ⟨p, q, rfl⟩ : ∃ (p : Fin 100000) (q : Fin 2), j = ix2 p q := ⟨j 0, j 1, eq_ix2 j⟩
  rw [Cert.KernelIdeal.Layers.hid3_apply]
  refine Eq.trans ?_ (PlainDot.dotGeneral_apply none .single _ _ p q).symm
  refine Finset.sum_congr rfl fun k _ => ?_
  rw [act32_apply]

/-! ## The result -/

/-- The kernel program's result is the reference's network on the same arguments. -/
theorem result_eq_ref (c : Dev Cert.KernelIdeal.nD) :
    Cert.KernelIdeal.Layers.result m ρ c
      = Cert.ReferenceIdeal.Spec.refOut (Cert.KernelIdeal.Layers.feats m c) (Cert.KernelIdeal.Layers.edges m c) (Cert.KernelIdeal.Layers.wmat1 m c) (Cert.KernelIdeal.Layers.bias1 m c)
          (Cert.KernelIdeal.Layers.wmat2 m c) (Cert.KernelIdeal.Layers.bias2 m c) (Cert.KernelIdeal.Layers.wmat3 m c) (Cert.KernelIdeal.Layers.bias3 m c) := by
  rw [Cert.KernelIdeal.Layers.result_eq, aggPad2_eq, hid3_eq, Cert.KernelIdeal.Layers.agg2_eq, aggPad32_eq, hid2_eq, Cert.KernelIdeal.Layers.agg1_eq, aggPad64_eq, hid1_eq]
  rfl

end Products

end Cert.Proof.Bridge

end
-- ==== Proof.lean ====
/-
  A three-step graph convolution network on 100000 nodes: the kernel program against the plain reference.

  Both programs add one self-loop per node to the 1.6 million given edges, count the edges arriving at each node,
  weight edge `e` by `deg[src e]^(-1/2) · deg[dst e]^(-1/2)`, and three times over transform the node features
  by a weight matrix, gather the transformed row of every edge's source, scale it by the edge's weight and add it
  into the row of the edge's destination, adding a bias afterwards and clamping at zero after the first two steps.

  The kernel program forms the three matrix products and the three scalings in six regions, tiled over rows, and
  for the scalings extends the edge list to a whole number of blocks by 3936 entries of weight zero that name node
  0. Over the extended reals a tiled product is the product, a change of float format is the identity, and an
  extended entry adds `0 · x = 0` into node 0: so the two programs end with the same array, entry by entry, for
  every edge list whatsoever (an index out of range is clamped by the gathers and dropped by the accumulations in
  both programs alike) and every extended-real input; the finiteness of the float inputs is not used.

  The three frames: the kernel programs' are the frames of their segments (six regions among host stretches); the
  reference has no kernel, and its frame is its run with the result dropped. The kernel's idealization rewrote no
  operation, so there is nothing to preserve.
-/
import proofs.«130575_j19585050869931_1_alg».proof.Defs
import proofs.«130575_j19585050869931_1_alg».proof.Proof.Gen.Kernel
import proofs.«130575_j19585050869931_1_alg».proof.Proof.Gen.Kernel.Frame
import proofs.«130575_j19585050869931_1_alg».proof.Proof.Gen.KernelIdeal
import proofs.«130575_j19585050869931_1_alg».proof.Proof.Gen.KernelIdeal.Frame
import proofs.«130575_j19585050869931_1_alg».proof.Proof.Gen.ReferenceIdeal
import proofs.«130575_j19585050869931_1_alg».proof.Proof.Gen.Pre_finite_inputs
import proofs.«130575_j19585050869931_1_alg».proof.Proof.KernelRun
import proofs.«130575_j19585050869931_1_alg».proof.Proof.RefRun
import proofs.«130575_j19585050869931_1_alg».proof.Proof.Spec
import proofs.«130575_j19585050869931_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs end with the same result array: the kernel program's
    result, read through its segments, is the reference's network on the shared arguments. -/
theorem algebraic : Cert.algebraic_KernelIdeal_ReferenceIdeal := by
  intro m ρ m' ρ' _ hagree
  refine ⟨fun c => Cert.KernelIdeal.Layers.result m ρ c, Cert.KernelIdeal.GenP.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Spec.res_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Proof.Bridge.result_eq_ref m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
